-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1000000x2 : Shape := ⟨2, ![1000000, 2]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S1000000x2 : S_.BroadcastsInDim S1000000x2 (![] : Fin 0 → Fin S1000000x2.rank)
  reducesTo_S1000000x2_S_d0_1 : S1000000x2.ReducesTo [0, 1] S_

variable [Facts]

def fn_part2 {F : FTy → Type} [FloatOps F] (main_arg7 : IVec S1000000x2 32) (main_v33 : IVec S_ 1) : IVec S_ 1 :=
  let main_c_12 : IVec S_ 32 := constantI S_ 32 0#32
  let main_v34 : IVec S1000000x2 32 := broadcastInDim S1000000x2 ![] bcast_S_S1000000x2 main_c_12
  let main_v35 : IVec S1000000x2 1 := cmpi .sge main_arg7 main_v34
  let main_c_13 : IVec S_ 1 := constantI S_ 1 1#1
  let main_v36 : IVec S_ 1 := (fun x v => Host.reduce IntOp.andi x v reducesTo_S1000000x2_S_d0_1 h_S_) main_v35 main_c_13
  let main_v37 : IVec S_ 1 := andi main_v33 main_v36
  let main_c_14 : IVec S_ 32 := constantI S_ 32 100000#32
  let main_v38 : IVec S1000000x2 32 := broadcastInDim S1000000x2 ![] bcast_S_S1000000x2 main_c_14
  let main_v39 : IVec S1000000x2 1 := cmpi .slt main_arg7 main_v38
  let main_c_15 : IVec S_ 1 := constantI S_ 1 1#1
  let main_v40 : IVec S_ 1 := (fun x v => Host.reduce IntOp.andi x v reducesTo_S1000000x2_S_d0_1 h_S_) main_v39 main_c_15
  let main_v41 : IVec S_ 1 := andi main_v37 main_v40
  main_v41

def fn_part1 {F : FTy → Type} [FloatOps F] (main_arg4 : FVec F S64 .f32) (main_arg5 : FVec F S64x1 .f32) (main_arg6 : FVec F S1 .f32) (main_arg7 : IVec S1000000x2 32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_v33

def fn {F : FTy → Type} [FloatOps F] (main_arg0 : FVec F S1000000x64 .f32) (main_arg1 : FVec F S64x64 .f32) (main_arg2 : FVec F S64 .f32) (main_arg3 : FVec F S64x64 .f32) (main_arg4 : FVec F S64 .f32) (main_arg5 : FVec F S64x1 .f32) (main_arg6 : FVec F S1 .f32) (main_arg7 : IVec S1000000x2 32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_v13 main_v16
-- ==== Kernel.lean ====
abbrev S1000000x64 : Shape := ⟨2, ![1000000, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1000000x2 : Shape := ⟨2, ![1000000, 2]⟩
abbrev S1000000x1 : Shape := ⟨2, ![1000000, 1]⟩
abbrev S1000000 : Shape := ⟨1, ![1000000]⟩
abbrev S_ : Shape := ⟨0, ![]⟩
abbrev S100000x64 : Shape := ⟨2, ![100000, 64]⟩
abbrev S100000 : Shape := ⟨1, ![100000]⟩
abbrev S1x1 : Shape := ⟨2, ![1, 1]⟩
abbrev S500000x128 : Shape := ⟨2, ![500000, 128]⟩
abbrev S500000x4 : Shape := ⟨2, ![500000, 4]⟩
abbrev S64x128 : Shape := ⟨2, ![64, 128]⟩
abbrev S128x128 : Shape := ⟨2, ![128, 128]⟩
abbrev S128 : Shape := ⟨1, ![128]⟩
abbrev S1x64 : Shape := ⟨2, ![1, 64]⟩
abbrev S2000x128 : Shape := ⟨2, ![2000, 128]⟩
abbrev S2000x4 : Shape := ⟨2, ![2000, 4]⟩
abbrev S2000x1 : Shape := ⟨2, ![2000, 1]⟩
abbrev S1x128 : Shape := ⟨2, ![1, 128]⟩
abbrev S2000x64 : Shape := ⟨2, ![2000, 64]⟩
abbrev S2000 : Shape := ⟨1, ![2000]⟩

abbrev nBuf : Space → Nat
  | .hbm => 156
  | .vmem => 16
  | .smem => 0
  | _ => 0

abbrev hbmTy0_0 (i : Nat) : BufTy := match i % 128 with
  | 0 => ⟨S1000000x64, .f32⟩
  | 1 => ⟨S64x64, .f32⟩
  | 2 => ⟨S64, .f32⟩
  | 3 => ⟨S64x64, .f32⟩
  | 4 => ⟨S64, .f32⟩
  | 5 => ⟨S64x1, .f32⟩
  | 6 => ⟨S1, .f32⟩
  | 7 => ⟨S1000000x2, .i32⟩
  | 8 => ⟨S1000000x1, .i32⟩
  | 9 => ⟨S1000000, .i32⟩
  | 10 => ⟨S1000000x1, .i32⟩
  | 11 => ⟨S1000000, .i32⟩
  | 12 => ⟨S_, .f32⟩
  | 13 => ⟨S100000x64, .f32⟩
  | 14 => ⟨S1000000x1, .i32⟩
  | 15 => ⟨S100000x64, .f32⟩
  | 16 => ⟨S_, .f32⟩
  | 17 => ⟨S100000x64, .f32⟩
  | 18 => ⟨S1000000x1, .i32⟩
  | 19 => ⟨S100000x64, .f32⟩
  | 20 => ⟨S100000x64, .f32⟩
  | 21 => ⟨S_, .f32⟩
  | 22 => ⟨S1000000, .f32⟩
  | 23 => ⟨S_, .f32⟩
  | 24 => ⟨S100000, .f32⟩
  | 25 => ⟨S1000000x1, .i32⟩
  | 26 => ⟨S100000, .f32⟩
  | 27 => ⟨S_, .f32⟩
  | 28 => ⟨S100000, .f32⟩
  | 29 => ⟨S1000000x1, .i32⟩
  | 30 => ⟨S100000, .f32⟩
  | 31 => ⟨S100000, .f32⟩
  | 32 => ⟨S_, .f32⟩
  | 33 => ⟨S100000, .f32⟩
  | 34 => ⟨S100000, .i1⟩
  | 35 => ⟨S_, .f32⟩
  | 36 => ⟨S100000, .f32⟩
  | 37 => ⟨S100000, .f32⟩
  | 38 => ⟨S_, .f32⟩
  | 39 => ⟨S100000, .f32⟩
  | 40 => ⟨S100000, .f32⟩
  | 41 => ⟨S_, .f32⟩
  | 42 => ⟨S100000, .f32⟩
  | 43 => ⟨S100000, .f32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1, .i32⟩
  | 53 => ⟨S_, .i32⟩
  | 54 => ⟨S1000000x1, .i32⟩
  | 55 => ⟨S1000000x1, .i1⟩
  | 56 => ⟨S1x1, .i32⟩
  | 57 => ⟨S1000000x1, .i32⟩
  | 58 => ⟨S1000000x1, .i1⟩
  | 59 => ⟨S1000000x1, .i1⟩
  | 60 => ⟨S_, .i1⟩
  | 61 => ⟨S1000000, .i1⟩
  | 62 => ⟨S1000000x64, .f32⟩
  | 63 => ⟨S1000000x64, .i1⟩
  | 64 => ⟨S_, .f32⟩
  | 65 => ⟨S1000000x64, .f32⟩
  | 66 => ⟨S1000000x64, .f32⟩
  | 67 => ⟨S_, .i32⟩
  | 68 => ⟨S1000000, .i32⟩
  | 69 => ⟨S1000000, .i1⟩
  | 70 => ⟨S_, .i32⟩
  | 71 => ⟨S1000000, .i32⟩
  | 72 => ⟨S1000000, .i32⟩
  | 73 => ⟨S1000000, .i32⟩
  | 74 => ⟨S1000000x1, .i32⟩
  | 75 => ⟨S1, .i32⟩
  | 76 => ⟨S_, .i32⟩
  | 77 => ⟨S1000000x1, .i32⟩
  | 78 => ⟨S1000000x1, .i1⟩
  | 79 => ⟨S1x1, .i32⟩
  | 80 => ⟨S1000000x1, .i32⟩
  | 81 => ⟨S1000000x1, .i1⟩
  | 82 => ⟨S1000000x1, .i1⟩
  | 83 => ⟨S_, .i1⟩
  | 84 => ⟨S1000000, .i1⟩
  | 85 => ⟨S1000000x64, .f32⟩
  | 86 => ⟨S1000000x64, .i1⟩
  | 87 => ⟨S_, .f32⟩
  | 88 => ⟨S1000000x64, .f32⟩
  | 89 => ⟨S1000000x64, .f32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S1, .i32⟩
  | 99 => ⟨S_, .i32⟩
  | 100 => ⟨S1000000x1, .i32⟩
  | 101 => ⟨S1000000x1, .i1⟩
  | 102 => ⟨S1x1, .i32⟩
  | 103 => ⟨S1000000x1, .i32⟩
  | 104 => ⟨S1000000x1, .i1⟩
  | 105 => ⟨S1000000x1, .i1⟩
  | 106 => ⟨S_, .i1⟩
  | 107 => ⟨S1000000, .i1⟩
  | 108 => ⟨S1000000, .f32⟩
  | 109 => ⟨S_, .f32⟩
  | 110 => ⟨S1000000, .f32⟩
  | 111 => ⟨S1000000, .f32⟩
  | 112 => ⟨S_, .i32⟩
  | 113 => ⟨S1000000, .i32⟩
  | 114 => ⟨S1000000, .i1⟩
  | 115 => ⟨S_, .i32⟩
  | 116 => ⟨S1000000, .i32⟩
  | 117 => ⟨S1000000, .i32⟩
  | 118 => ⟨S1000000, .i32⟩
  | 119 => ⟨S1000000x1, .i32⟩
  | 120 => ⟨S1, .i32⟩
  | 121 => ⟨S_, .i32⟩
  | 122 => ⟨S1000000x1, .i32⟩
  | 123 => ⟨S1000000x1, .i1⟩
  | 124 => ⟨S1x1, .i32⟩
  | 125 => ⟨S1000000x1, .i32⟩
  | 126 => ⟨S1000000x1, .i1⟩
  | 127 => ⟨S1000000x1, .i1⟩
  | _ => ⟨S1000000x64, .f32⟩

abbrev hbmTy0_1 (i : Nat) : BufTy := match i % 128 with
  | 0 => ⟨S_, .i1⟩
  | 1 => ⟨S1000000, .i1⟩
  | 2 => ⟨S1000000, .f32⟩
  | 3 => ⟨S_, .f32⟩
  | 4 => ⟨S1000000, .f32⟩
  | 5 => ⟨S1000000, .f32⟩
  | 6 => ⟨S500000x128, .f32⟩
  | 7 => ⟨S500000x128, .f32⟩
  | 8 => ⟨S500000x128, .f32⟩
  | 9 => ⟨S1000000x1, .f32⟩
  | 10 => ⟨S1000000x1, .f32⟩
  | 11 => ⟨S1000000x2, .f32⟩
  | 12 => ⟨S500000x4, .f32⟩
  | 13 => ⟨S_, .f32⟩
  | 14 => ⟨S64x64, .f32⟩
  | 15 => ⟨S64x128, .f32⟩
  | 16 => ⟨S64x128, .f32⟩
  | 17 => ⟨S128x128, .f32⟩
  | 18 => ⟨S_, .f32⟩
  | 19 => ⟨S64x64, .f32⟩
  | 20 => ⟨S64x128, .f32⟩
  | 21 => ⟨S64x128, .f32⟩
  | 22 => ⟨S128x128, .f32⟩
  | 23 => ⟨S128, .f32⟩
  | 24 => ⟨S128, .f32⟩
  | 25 => ⟨S1x64, .f32⟩
  | 26 => ⟨S500000x128, .f32⟩
  | 27 => ⟨S1000000x64, .f32⟩
  | _ => ⟨S1000000x64, .f32⟩

abbrev hbmTy (i : Nat) : BufTy := match i / 128 with
  | 0 => hbmTy0_0 i
  | 1 => hbmTy0_1 i
  | _ => ⟨S1000000x64, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x4, .f32⟩
  | .local _ .vmem, ⟨7, _⟩ => ⟨S2000x4, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S1x64, .f32⟩
  | .local _ .vmem, ⟨13, _⟩ => ⟨S1, .f32⟩
  | .local _ .vmem, ⟨14, _⟩ => ⟨S2000x128, .f32⟩
  | .local _ .vmem, ⟨15, _⟩ => ⟨S2000x128, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v27 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v28 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_cst : Ref sig .tc := ⟨.hbm, 109, rfl⟩
abbrev main_call3_v14 : Ref sig .tc := ⟨.hbm, 110, rfl⟩
abbrev main_v29 : Ref sig .tc := ⟨.hbm, 111, rfl⟩
abbrev main_call4_c : Ref sig .tc := ⟨.hbm, 112, rfl⟩
abbrev main_call4_v0 : Ref sig .tc := ⟨.hbm, 113, rfl⟩
abbrev main_call4_v1 : Ref sig .tc := ⟨.hbm, 114, rfl⟩
abbrev main_call4_c_0 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_v5 : Ref sig .tc := ⟨.hbm, 119, rfl⟩
abbrev main_call4_c_1 : Ref sig .tc := ⟨.hbm, 120, rfl⟩
abbrev main_call4_c_2 : Ref sig .tc := ⟨.hbm, 121, rfl⟩
abbrev main_call4_v6 : Ref sig .tc := ⟨.hbm, 122, rfl⟩
abbrev main_call4_v7 : Ref sig .tc := ⟨.hbm, 123, rfl⟩
abbrev main_call4_v8 : Ref sig .tc := ⟨.hbm, 124, rfl⟩
abbrev main_call4_v9 : Ref sig .tc := ⟨.hbm, 125, rfl⟩
abbrev main_call4_v10 : Ref sig .tc := ⟨.hbm, 126, rfl⟩
abbrev main_call4_v11 : Ref sig .tc := ⟨.hbm, 127, rfl⟩
abbrev main_call4_c_3 : Ref sig .tc := ⟨.hbm, 128, rfl⟩
abbrev main_call4_v12 : Ref sig .tc := ⟨.hbm, 129, rfl⟩
abbrev main_call4_v13 : Ref sig .tc := ⟨.hbm, 130, rfl⟩
abbrev main_call4_cst : Ref sig .tc := ⟨.hbm, 131, rfl⟩
abbrev main_call4_v14 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩
abbrev main_cst_8 : Ref sig .tc := ⟨.hbm, 141, rfl⟩
abbrev main_v38 : Ref sig .tc := ⟨.hbm, 142, rfl⟩
abbrev main_v39 : Ref sig .tc := ⟨.hbm, 143, rfl⟩
abbrev main_v40 : Ref sig .tc := ⟨.hbm, 144, rfl⟩
abbrev main_v41 : Ref sig .tc := ⟨.hbm, 145, rfl⟩
abbrev main_cst_9 : Ref sig .tc := ⟨.hbm, 146, rfl⟩
abbrev main_v42 : Ref sig .tc := ⟨.hbm, 147, rfl⟩
abbrev main_v43 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev main_v48 : Ref sig .tc := ⟨.hbm, 153, rfl⟩
abbrev main_v49 : Ref sig .tc := ⟨.hbm, 154, rfl⟩
abbrev main_v50 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  bcast_S_S100000x64 : S_.BroadcastsInDim S100000x64 (![] : Fin 0 → Fin S100000x64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S100000 : S_.BroadcastsInDim S100000 (![] : Fin 0 → Fin S100000.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  shapeCasts_S1000000x64_S500000x128 : S1000000x64.ShapeCasts S500000x128
  concatenates_S1000000x1_S1000000x1_S1000000x2_d1 : Shape.Concatenates [S1000000x1, S1000000x1] S1000000x2 1
  shapeCasts_S1000000x2_S500000x4 : S1000000x2.ShapeCasts S500000x4
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  transposes_S64x1_S1x64_1_0 : S64x1.Transposes [1, 0] S1x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x4_S2000x4_0_0 : ∀ a, (![0, 0] : Fin 2 → Nat) a + S2000x4.size a ≤ S2000x4.size a
  h_S2000x4 : 0 < S2000x4.numel
  shapeCasts_S2000x4_S2000x4 : S2000x4.ShapeCasts S2000x4
  iota_S2000x128_d1_w32 : S2000x128.Iotas .tc 32 [1]
  slices_S2000x4_o0_0_S2000x1 : S2000x4.Slices ![0, 0] S2000x1
  slices_S2000x4_o0_1_S2000x1 : S2000x4.Slices ![0, 1] S2000x1
  slices_S2000x4_o0_2_S2000x1 : S2000x4.Slices ![0, 2] S2000x1
  slices_S2000x4_o0_3_S2000x1 : S2000x4.Slices ![0, 3] S2000x1
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1_S1_0 : ∀ a, (![0] : Fin 1 → Nat) a + S1.size a ≤ S1.size a
  h_S1 : 0 < S1.numel
  slices_S2000x128_o0_0_S2000x64 : S2000x128.Slices ![0, 0] S2000x64
  slices_S2000x128_o0_64_S2000x64 : S2000x128.Slices ![0, 64] S2000x64
  broadcasts_S1x64_S2000x64 : S1x64.Broadcasts S2000x64
  reduces_S2000x64_S2000 : S2000x64.Reduces [1] S2000
  shapeCasts_S2000_S2000x1 : S2000.ShapeCasts S2000x1
  shapeCasts_S1_S1x1 : S1.ShapeCasts S1x1
  broadcasts_S1x1_S2000x1 : S1x1.Broadcasts S2000x1
  shapeCasts_S500000x128_S1000000x64 : S500000x128.ShapeCasts S1000000x64
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  gather_S100000_S1000000x1_S1000000_n_0_n_n_0_1_1_wf : GatherDims.WF S100000 S1000000x1 S1000000 [] [0] [] [0] [] 1 ![1]
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S500000x128.size a
  hwx0_0 : ∀ i : grid0.Coords, EltTy.bits .f32 = 32 ∨ (Rect.block (s := S500000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S500000x128.size a
  hwx0_1 : ∀ i : grid0.Coords, EltTy.bits .f32 = 32 ∨ (Rect.block (s := S500000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S500000x128.size a
  hwx0_2 : ∀ i : grid0.Coords, EltTy.bits .f32 = 32 ∨ (Rect.block (s := S500000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x4.size a ≤ S500000x4.size a
  hwx0_3 : ∀ i : grid0.Coords, EltTy.bits .f32 = 32 ∨ (Rect.block (s := S500000x4) S2000x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S500000x128.size a
  hwx0_10 : ∀ i : grid0.Coords, EltTy.bits .f32 = 32 ∨ (Rect.block (s := S500000x128) S2000x128.size (cc0_transform_10 i) (hinb0_10 i)).WholeWords (EltTy.packing .f32)

variable [Facts₀]

def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v31) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S2000x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v41) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v46) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v47) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v48) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v49) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1000000x2 : Shape := ⟨2, ![1000000, 2]⟩
abbrev S1000000x1 : Shape := ⟨2, ![1000000, 1]⟩
abbrev S1000000 : Shape := ⟨1, ![1000000]⟩
abbrev S_ : Shape := ⟨0, ![]⟩
abbrev S100000x64 : Shape := ⟨2, ![100000, 64]⟩
abbrev S100000 : Shape := ⟨1, ![100000]⟩
abbrev S1x64 : Shape := ⟨2, ![1, 64]⟩
abbrev S1x1 : Shape := ⟨2, ![1, 1]⟩

abbrev nBuf : Space → Nat
  | .hbm => 133
  | .vmem => 0
  | .smem => 0
  | _ => 0

abbrev hbmTy0_0 (i : Nat) : BufTy := match i % 128 with
  | 0 => ⟨S1000000x64, .f32⟩
  | 1 => ⟨S64x64, .f32⟩
  | 2 => ⟨S64, .f32⟩
  | 3 => ⟨S64x64, .f32⟩
  | 4 => ⟨S64, .f32⟩
  | 5 => ⟨S64x1, .f32⟩
  | 6 => ⟨S1, .f32⟩
  | 7 => ⟨S1000000x2, .i32⟩
  | 8 => ⟨S1000000x1, .i32⟩
  | 9 => ⟨S1000000, .i32⟩
  | 10 => ⟨S1000000x1, .i32⟩
  | 11 => ⟨S1000000, .i32⟩
  | 12 => ⟨S_, .f32⟩
  | 13 => ⟨S100000x64, .f32⟩
  | 14 => ⟨S1000000x1, .i32⟩
  | 15 => ⟨S100000x64, .f32⟩
  | 16 => ⟨S_, .f32⟩
  | 17 => ⟨S100000x64, .f32⟩
  | 18 => ⟨S1000000x1, .i32⟩
  | 19 => ⟨S100000x64, .f32⟩
  | 20 => ⟨S100000x64, .f32⟩
  | 21 => ⟨S_, .f32⟩
  | 22 => ⟨S1000000, .f32⟩
  | 23 => ⟨S_, .f32⟩
  | 24 => ⟨S100000, .f32⟩
  | 25 => ⟨S1000000x1, .i32⟩
  | 26 => ⟨S100000, .f32⟩
  | 27 => ⟨S_, .f32⟩
  | 28 => ⟨S100000, .f32⟩
  | 29 => ⟨S1000000x1, .i32⟩
  | 30 => ⟨S100000, .f32⟩
  | 31 => ⟨S100000, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000, .f32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000x64, .f32⟩
  | 50 => ⟨S1000000x64, .f32⟩
  | 51 => ⟨S_, .f32⟩
  | 52 => ⟨S1000000, .f32⟩
  | 53 => ⟨S1000000, .f32⟩
  | 54 => ⟨S_, .f32⟩
  | 55 => ⟨S1000000, .f32⟩
  | 56 => ⟨S1000000, .f32⟩
  | 57 => ⟨S1000000x1, .f32⟩
  | 58 => ⟨S_, .f32⟩
  | 59 => ⟨S1000000, .f32⟩
  | 60 => ⟨S1000000, .i1⟩
  | 61 => ⟨S1000000x1, .i1⟩
  | 62 => ⟨S1000000x64, .f32⟩
  | 63 => ⟨S1000000x64, .f32⟩
  | 64 => ⟨S_, .f32⟩
  | 65 => ⟨S1000000x64, .f32⟩
  | 66 => ⟨S1000000x64, .i1⟩
  | 67 => ⟨S1000000x64, .f32⟩
  | 68 => ⟨S_, .i32⟩
  | 69 => ⟨S1000000, .i32⟩
  | 70 => ⟨S1000000, .i1⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S1000000, .f32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S1000000x64, .f32⟩
  | 86 => ⟨S1000000x64, .f32⟩
  | 87 => ⟨S_, .f32⟩
  | 88 => ⟨S1000000, .f32⟩
  | 89 => ⟨S1000000, .f32⟩
  | 90 => ⟨S_, .f32⟩
  | 91 => ⟨S1000000, .f32⟩
  | 92 => ⟨S1000000, .f32⟩
  | 93 => ⟨S1000000x1, .f32⟩
  | 94 => ⟨S_, .f32⟩
  | 95 => ⟨S1000000, .f32⟩
  | 96 => ⟨S1000000, .i1⟩
  | 97 => ⟨S1000000x1, .i1⟩
  | 98 => ⟨S1000000x64, .f32⟩
  | 99 => ⟨S1000000x64, .f32⟩
  | 100 => ⟨S_, .f32⟩
  | 101 => ⟨S1000000x64, .f32⟩
  | 102 => ⟨S1000000x64, .i1⟩
  | 103 => ⟨S1000000x64, .f32⟩
  | 104 => ⟨S1000000x64, .f32⟩
  | 105 => ⟨S1x64, .f32⟩
  | 106 => ⟨S1000000x64, .f32⟩
  | 107 => ⟨S1000000x64, .f32⟩
  | 108 => ⟨S1000000x64, .f32⟩
  | 109 => ⟨S1x64, .f32⟩
  | 110 => ⟨S1000000x64, .f32⟩
  | 111 => ⟨S1000000x64, .f32⟩
  | 112 => ⟨S1000000x64, .f32⟩
  | 113 => ⟨S1000000x1, .f32⟩
  | 114 => ⟨S1x1, .f32⟩
  | 115 => ⟨S1000000x1, .f32⟩
  | 116 => ⟨S1000000x1, .f32⟩
  | 117 => ⟨S1000000x1, .f32⟩
  | 118 => ⟨S1000000x1, .f32⟩
  | 119 => ⟨S_, .f32⟩
  | 120 => ⟨S1000000x1, .f32⟩
  | 121 => ⟨S1000000x1, .f32⟩
  | 122 => ⟨S_, .f32⟩
  | 123 => ⟨S1000000x1, .f32⟩
  | 124 => ⟨S1000000x1, .f32⟩
  | 125 => ⟨S1000000x64, .f32⟩
  | 126 => ⟨S1000000x64, .f32⟩
  | 127 => ⟨S_, .f32⟩
  | _ => ⟨S1000000x64, .f32⟩

abbrev hbmTy0_1 (i : Nat) : BufTy := match i % 128 with
  | 0 => ⟨S1000000x1, .f32⟩
  | 1 => ⟨S1000000x1, .f32⟩
  | 2 => ⟨S1000000x64, .f32⟩
  | 3 => ⟨S1000000x64, .f32⟩
  | 4 => ⟨S1000000x64, .f32⟩
  | _ => ⟨S1000000x64, .f32⟩

abbrev hbmTy (i : Nat) : BufTy := match i / 128 with
  | 0 => hbmTy0_0 i
  | 1 => hbmTy0_1 i
  | _ => ⟨S1000000x64, .f32⟩

abbrev bufTy : (tb : Table) → Fin (tcTables nBuf tb) → BufTy
  | .hbm, ⟨i, _⟩ => hbmTy i
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_call0_v0 : Ref sig .tc := ⟨.hbm, 66, rfl⟩
abbrev main_v45 : Ref sig .tc := ⟨.hbm, 67, rfl⟩
abbrev main_c_11 : Ref sig .tc := ⟨.hbm, 68, rfl⟩
abbrev main_v46 : Ref sig .tc := ⟨.hbm, 69, rfl⟩
abbrev main_v47 : Ref sig .tc := ⟨.hbm, 70, rfl⟩
abbrev main_c_12 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_13 : Ref sig .tc := ⟨.hbm, 77, rfl⟩
abbrev main_v53 : Ref sig .tc := ⟨.hbm, 78, rfl⟩
abbrev main_v54 : Ref sig .tc := ⟨.hbm, 79, rfl⟩
abbrev main_c_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_15 : Ref sig .tc := ⟨.hbm, 87, rfl⟩
abbrev main_v61 : Ref sig .tc := ⟨.hbm, 88, rfl⟩
abbrev main_v62 : Ref sig .tc := ⟨.hbm, 89, rfl⟩
abbrev main_cst_16 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_17 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_18 : Ref sig .tc := ⟨.hbm, 100, rfl⟩
abbrev main_v71 : Ref sig .tc := ⟨.hbm, 101, rfl⟩
abbrev main_call1_v0 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_19 : Ref sig .tc := ⟨.hbm, 119, rfl⟩
abbrev main_v88 : Ref sig .tc := ⟨.hbm, 120, rfl⟩
abbrev main_v89 : Ref sig .tc := ⟨.hbm, 121, rfl⟩
abbrev main_cst_20 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_21 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩

abbrev nD : Nat := 1
abbrev τ : Topo := Topo.v7x

variable {F : FTy → Type} [FloatOps F]

class Facts₀ : Prop where
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  bcast_S_S100000x64 : S_.BroadcastsInDim S100000x64 (![] : Fin 0 → Fin S100000x64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S100000 : S_.BroadcastsInDim S100000 (![] : Fin 0 → Fin S100000.rank)
  bcast_S1000000x1_S1000000x64_0_1 : S1000000x1.BroadcastsInDim S1000000x64 (![0, 1] : Fin 2 → Fin S1000000x64.rank)
  bcast_S_S1000000x64 : S_.BroadcastsInDim S1000000x64 (![] : Fin 0 → Fin S1000000x64.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  dot_S1000000x64_S64x64_S1000000x64_1_0_0_1_n_n_wf : DotDims.WF S1000000x64 S64x64 S1000000x64 [1] [0] [0] [1] [] []
  dot_S1000000x64_S64x1_S1000000x1_1_0_0_1_n_n_wf : DotDims.WF S1000000x64 S64x1 S1000000x1 [1] [0] [0] [1] [] []

variable [Facts₀]

def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.KArrays.lean ====
/- Names, at their literal array types, for what the kernel's region finds in its ten operands and for the program's
   eight arguments; and the program's result array after the lines that follow the region. -/
import proofs.«400100_j65824668779103_2_alg».proof.Proof.Gen.KernelIdeal.Frame
import Idealize.ShloMosaic.PureOps.Ideal

noncomputable section

namespace Cert.KernelIdeal.Arr

open Cert.KernelIdeal Cert.KernelIdeal.Gen Idealize.ShloMosaic Idealize.ShloMosaic.TcCoe Idealize.SL.Sem

variable (m : (ℓ : Loc nD τ sig) → Buf (Elt Ideal) ℓ)

/-- The argument arrays as launched. -/
abbrev a0 (c : Dev nD) : FVec Ideal S1000000x64 .f32 := m ((c.tc : Thread nD τ).loc main_arg0)
abbrev a1 (c : Dev nD) : FVec Ideal S64x64 .f32 := m ((c.tc : Thread nD τ).loc main_arg1)
abbrev a2 (c : Dev nD) : FVec Ideal S64 .f32 := m ((c.tc : Thread nD τ).loc main_arg2)
abbrev a3 (c : Dev nD) : FVec Ideal S64x64 .f32 := m ((c.tc : Thread nD τ).loc main_arg3)
abbrev a4 (c : Dev nD) : FVec Ideal S64 .f32 := m ((c.tc : Thread nD τ).loc main_arg4)
abbrev a5 (c : Dev nD) : FVec Ideal S64x1 .f32 := m ((c.tc : Thread nD τ).loc main_arg5)
abbrev a6 (c : Dev nD) : FVec Ideal S1 .f32 := m ((c.tc : Thread nD τ).loc main_arg6)
abbrev a7 (c : Dev nD) : IVec S1000000x2 32 := m ((c.tc : Thread nD τ).loc main_arg7)

/-- The region's operands as it finds them: the packed edge embeddings, the packed endpoint sums, the packed
    reciprocals, the block-diagonal weights, the doubled biases, the gate's row and bias. -/
abbrev eeP (c : Dev nD) : FVec Ideal S500000x128 .f32 := V m c main_v31
abbrev suP (c : Dev nD) : FVec Ideal S500000x128 .f32 := V m c main_v32
abbrev svP (c : Dev nD) : FVec Ideal S500000x128 .f32 := V m c main_v33
abbrev duvP (c : Dev nD) : FVec Ideal S500000x4 .f32 := V m c main_v37
abbrev wf2 (c : Dev nD) : FVec Ideal S128x128 .f32 := V m c main_v41
abbrev bf2 (c : Dev nD) : FVec Ideal S128 .f32 := V m c main_v46
abbrev wb2 (c : Dev nD) : FVec Ideal S128x128 .f32 := V m c main_v45
abbrev bb2 (c : Dev nD) : FVec Ideal S128 .f32 := V m c main_v47
abbrev wgT (c : Dev nD) : FVec Ideal S1x64 .f32 := V m c main_v48
abbrev bgA (c : Dev nD) : FVec Ideal S1 .f32 := V m c main_arg6

/-- The program's result array: what the lines after the region leave in it. -/
abbrev KV (c : Dev nD) : FVec Ideal S1000000x64 .f32 :=
  Pipeline.afterTail₀ cfgs (dats m) 0 (V0 m) [hostOps1] c main_v50

end Cert.KernelIdeal.Arr

end
-- ==== Proof.Spec.lean ====
/-
  The mathematics of the edge-gating layer, free of any program.

  Every edge e has two endpoints u(e), v(e). For an endpoint n let s be the sum of the embeddings of all edges
  incident to n (row of the node table) and d the number of those edges. The mean of the OTHER incident edges is
  (s - x) / (d - 1) when d > 1 and 0 otherwise, x being the edge's own embedding. The two means go through two
  linear layers, a scalar logistic gate is read off the sum of the two results, and the output is the gate's convex
  mix of the two. The reference divides by max (d - 1) 1 under a test d > 1; the kernel multiplies by a
  per-node reciprocal that is 0 when d <= 1 (`invDeg`), and it processes two edges per 128-lane row with
  block-diagonal weights (`pack`, `blockDiag`, `rowOut`).
-/
import Idealize.ShloMosaic.PureOps.Ideal
import Idealize.ShloMosaic.Lib.ValueIdx

noncomputable section

namespace Cert.EdgeGate

open Idealize.ShloMosaic Idealize.ShloMosaic.ValueIdx

/-- Reciprocal of (degree - 1); zero where the degree is at most one. -/
def invDeg (d : EReal) : EReal := if 1 < d then Ideal.div 1 (d - 1) else 0

/-- Mean of the other incident edges, the reference's spelling: a quotient by `max (d - 1) 1` under the test `1 < d`. -/
def meanRef (s x d : EReal) : EReal := if 1 < d then Ideal.div (s - x) (max (d - 1) 1) else 0

/-- The same mean, the kernel's spelling: a product with the node's reciprocal. -/
def meanKer (s x d : EReal) : EReal := (s - x) * invDeg d

/-- One edge through a linear layer: column `j` of `a · W + b`. -/
def lin (a : Fin 64 → EReal) (W : Fin 64 → Fin 64 → EReal) (b : Fin 64 → EReal) (j : Fin 64) : EReal :=
  (∑ k : Fin 64, a k * W k j) + b j

/-- The scalar gate of one edge, from its forward and backward rows. -/
def gate (f b : Fin 64 → EReal) (wg : Fin 64 → EReal) (bg : EReal) : EReal :=
  Ideal.logistic ((∑ k : Fin 64, (f k + b k) * wg k) + bg)

/-- The gate's mix of the forward and backward rows, at column `j`. -/
def mix (f b : Fin 64 → EReal) (wg : Fin 64 → EReal) (bg : EReal) (j : Fin 64) : EReal :=
  gate f b wg bg * f j + (1 - gate f b wg bg) * b j

/-- One edge's output row from its two aggregated rows. -/
def edgeOut (au av : Fin 64 → EReal) (Wf : Fin 64 → Fin 64 → EReal) (bf : Fin 64 → EReal) (Wb : Fin 64 → Fin 64 → EReal)
    (bb : Fin 64 → EReal) (wg : Fin 64 → EReal) (bg : EReal) (j : Fin 64) : EReal :=
  mix (lin au Wf bf) (lin av Wb bb) wg bg j

/-! ## Two edges per 128-lane row -/

/-- Lane `l` of the row holding `a` in lanes 0..63 and `b` in lanes 64..127. -/
def pack (a b : Fin 64 → EReal) (l : Fin 128) : EReal :=
  if h : l.val < 64 then a ⟨l.val, h⟩ else b ⟨l.val - 64, by have := l.isLt; omega⟩

/-- The 128 x 128 matrix with `W` in its two diagonal 64 x 64 blocks and zero elsewhere. -/
def blockDiag (W : Fin 64 → Fin 64 → EReal) (k l : Fin 128) : EReal :=
  if h : k.val < 64 then (if h' : l.val < 64 then W ⟨k.val, h⟩ ⟨l.val, h'⟩ else 0)
  else (if h' : l.val < 64 then 0 else W ⟨k.val - 64, by have := k.isLt; omega⟩ ⟨l.val - 64, by have := l.isLt; omega⟩)

/-- Lane `64 h + j`. -/
def lane (h : Fin 2) (j : Fin 64) : Fin 128 := ⟨64 * h.val + j.val, by have := h.isLt; have := j.isLt; omega⟩

/-- One packed row through the kernel's body: `x`, `s`, `t` the row's own embeddings and the two endpoint sums,
    `q` the four reciprocals `[u-side of edge 0, v-side of edge 0, u-side of edge 1, v-side of edge 1]`. -/
def rowOut (x s t : Fin 128 → EReal) (q : Fin 4 → EReal) (Wf2 : Fin 128 → Fin 128 → EReal) (bf2 : Fin 128 → EReal)
    (Wb2 : Fin 128 → Fin 128 → EReal) (bb2 : Fin 128 → EReal) (wg : Fin 64 → EReal) (bg : EReal) (l : Fin 128) : EReal :=
  let au : Fin 128 → EReal := fun k => (s k - x k) * (if k.val < 64 then q 0 else q 2)
  let av : Fin 128 → EReal := fun k => (t k - x k) * (if k.val < 64 then q 1 else q 3)
  let f : Fin 128 → EReal := fun n => (∑ k : Fin 128, au k * Wf2 k n) + bf2 n
  let b : Fin 128 → EReal := fun n => (∑ k : Fin 128, av k * Wb2 k n) + bb2 n
  let g0 : EReal := Ideal.logistic ((∑ j : Fin 64, (f (lane 0 j) + b (lane 0 j)) * wg j) + bg)
  let g1 : EReal := Ideal.logistic ((∑ j : Fin 64, (f (lane 1 j) + b (lane 1 j)) * wg j) + bg)
  let g : EReal := if l.val < 64 then g0 else g1
  g * f l + (1 - g) * b l

/-- Edge `2 r + h`: the edge in half `h` of packed row `r`. -/
def edge (r : Fin 500000) (h : Fin 2) : Fin 1000000 := ⟨2 * r.val + h.val, by have := r.isLt; have := h.isLt; omega⟩

/-- Every edge sits in one half of one packed row. -/
theorem edge_surj (e : Fin 1000000) : ∃ (r : Fin 500000) (h : Fin 2), e = edge r h :=
  ⟨⟨e.val / 2, by have := e.isLt; omega⟩, ⟨e.val % 2, by omega⟩, Fin.ext (by show e.val = 2 * (e.val / 2) + e.val % 2; omega)⟩

/-! ## The whole arrays -/

abbrev E64 : Shape := ⟨2, ![1000000, 64]⟩
abbrev E1 : Shape := ⟨1, ![1000000]⟩
abbrev W64 : Shape := ⟨2, ![64, 64]⟩
abbrev B64 : Shape := ⟨1, ![64]⟩
abbrev G64 : Shape := ⟨2, ![64, 1]⟩
abbrev B1 : Shape := ⟨1, ![1]⟩

/-- The layer's result as one function of the argument arrays and of the four per-edge gathers
    (`su`, `sv`: the endpoint sums' rows; `du`, `dv`: the endpoint degrees), with the mean spelt by `mean`. -/
def resultWith (mean : EReal → EReal → EReal → EReal) (ee : E64.Idx → EReal) (Wf : W64.Idx → EReal) (bf : B64.Idx → EReal)
    (Wb : W64.Idx → EReal) (bb : B64.Idx → EReal) (Wg : G64.Idx → EReal) (bg : B1.Idx → EReal)
    (su sv : E64.Idx → EReal) (du dv : E1.Idx → EReal) (e : Fin 1000000) (j : Fin 64) : EReal :=
  edgeOut (fun k => mean (su (ix2 e k)) (ee (ix2 e k)) (du (ix1 e))) (fun k => mean (sv (ix2 e k)) (ee (ix2 e k)) (dv (ix1 e)))
    (fun k n => Wf (ix2 k n)) (fun n => bf (ix1 n)) (fun k n => Wb (ix2 k n)) (fun n => bb (ix1 n))
    (fun k => Wg (ix2 k (0 : Fin 1))) (bg (ix1 (0 : Fin 1))) j

end Cert.EdgeGate

end
-- ==== Proof.KPayload.lean ====
import proofs.«400100_j65824668779103_2_alg».proof.Proof.Gen.KernelIdeal.Frame
import proofs.«400100_j65824668779103_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Payload

open Cert.KernelIdeal Cert.KernelIdeal.Gen Idealize.ShloMosaic Idealize.ShloMosaic.ValueIdx Cert.EdgeGate

/-
  The kernel body's arithmetic read at one element. The block the body stores is, at row `p` and lane `l`, a closed
  expression in row `p` of the input blocks: each endpoint sum minus the row's own embedding, scaled lane by lane by one
  of the four reciprocals of the row; the two products with the block-diagonal weights plus their bias rows; the two
  gates, one per half of the row, as the logistic of a 64-lane sum against the gate weights plus the gate bias; and
  the gate's convex mix of the two products. Every layout operation is read at an index written by coordinates, every
  non-pointwise operation (a lane sum, a matrix product, a lane test) by one small lemma over block variables.
-/

section Layout
variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- The signed comparison of a lane number below 128 with 64, as a bit. -/
theorem slt_64 : ∀ l : Fin 128, IntOp.cmpi .slt (BitVec.ofNat 32 l.val) 64#32 = if l.val < 64 then 1#1 else 0#1 := by
  decide

/-- The lane test of the body, read at `(p, l)`. -/
theorem lane_bit (p : Fin 2000) (l : Fin 128) :
    k0_pay4 (ix2 p l) = if l.val < 64 then 1#1 else 0#1 := by
  unfold k0_pay4
  show IntOp.cmpi .slt (iota .tc S2000x128 32 [1] Facts₀.iota_S2000x128_d1_w32 (ix2 p l)) 64#32 = _
  rw [iota_single_apply]
  exact slt_64 l

/-- A lane sum of a `[2000, 64]` value into a zero accumulator, read at row `p`. -/
theorem laneSum_at (v : FVec Ideal S2000x64 .f32) (hacc : (0x00000000#32 : BitVec 32) = 0x00000000#32) (p : Fin 2000) :
    multiReduction (F := Ideal) .add [1] S2000 v 0x00000000#32 Facts₀.reduces_S2000x64_S2000 (.inl rfl) hacc (ix1 p)
      = ∑ j : Fin 64, v (ix2 p j) := by
  refine (Ideal.multiReduction_add_single v 0x00000000#32 Facts₀.reduces_S2000x64_S2000 (.inl rfl) hacc (ix1 p)).trans ?_
  refine Finset.sum_congr rfl fun k _ => congrArg v ?_
  funext c; apply Fin.ext
  match c with
  | ⟨0, _⟩ => rfl
  | ⟨1, _⟩ => rfl

/-! ## The body's matrix product read at an index -/

/-- The product's operand indices, axis by axis: the left one is (row, contraction), the right one (contraction, column). -/
theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's `[2000, 128] x [128, 128]` product into a zero accumulator, read at `(p, n)`: the row of the left
    operand against the column of the right one. -/
theorem matmul_at (A : FVec Ideal S2000x128 .bf16) (B : FVec Ideal S128x128 .bf16) (p : Fin 2000) (n : Fin 128) :
    matmul dot_S2000x128_S128x128_S2000x128_1_0_0_1_n_n none A B (constant (F := Ideal) S2000x128 .f32 0x00000000#32) (ix2 p n)
      = ∑ k : Fin 128, A (ix2 p k) * B (ix2 k n) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p n) ((contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p n) ((contrEquiv1 dot_S2000x128_S128x128_S2000x128_1_0_0_1_n_n 128 rfl rfl).symm k) = ix2 k n := funext fun a => Fin.ext (by
    match a with
    | ⟨0, _⟩ => exact (rhs_axis0 _ _).trans hk
    | ⟨1, _⟩ => exact rhs_axis1 _ _)
  rw [el, er]

/-! ## The payloads read at an index -/

/-- The bit of the lane test chooses between two values as the test `l < 64` does. -/
theorem select_lane {α : Type} (p : Fin 2000) (l : Fin 128) (a b : α) :
    Scalar.select (k0_pay4 (ix2 p l)) a b = if l.val < 64 then a else b := by
  rw [lane_bit]
  by_cases h : l.val < 64
  · rw [if_pos h, if_pos h]; exact select_one a b
  · rw [if_neg h, if_neg h]; exact select_zero a b

/-- A cast of a block to its own shape is the block. -/
theorem pay2_eq (v : Vec Ideal S2000x128 .f32) : k0_pay2 (F := Ideal) v = v := shapeCast_self v _
theorem pay3_eq (v : Vec Ideal S2000x4 .f32) : k0_pay3 (F := Ideal) v = v := shapeCast_self v _
theorem pay7_eq (v : Vec Ideal S128 .f32) : k0_pay7 (F := Ideal) v = v := shapeCast_self v _
/-- The backward weights, narrowed: the identity on extended reals. -/
theorem pay6_at (v : Vec Ideal S128x128 .f32) (i : S128x128.Idx) : k0_pay6 (F := Ideal) v i = v i :=
  congrFun (shapeCast_self v _) i

/-- A `[128]` vector laid along every row of a `[2000, 128]` block. -/
theorem rowBias_at (v : FVec Ideal S128 .f32) (hc : S128.ShapeCasts S1x128) (hb : S1x128.Broadcasts S2000x128)
    (p : Fin 2000) (n : Fin 128) : broadcastTo S2000x128 (shapeCast S1x128 v hc) hb (ix2 p n) = v (ix1 n) :=
  (broadcastTo_1b_ab_apply _ hb p n).trans (shapeCast_a_1a_apply v hc 0 n)

/-- The forward bias laid along every row. -/
theorem pay9_at (v : Vec Ideal S128 .f32) (p : Fin 2000) (n : Fin 128) : k0_pay9 (F := Ideal) v (ix2 p n) = v (ix1 n) := by
  unfold k0_pay9
  refine (rowBias_at _ _ _ p n).trans ?_
  exact congrFun (shapeCast_self v _) _

/-- Column `k` of the reciprocals' block, laid along every lane. -/
theorem col_at (x3 : Vec Ideal S2000x4 .f32) (o : Nat) (hs : S2000x4.Slices ![0, o] S2000x1) (hc : S2000x1.ShapeCasts S2000x1)
    (hb : S2000x1.Broadcasts S2000x128) (p : Fin 2000) (l : Fin 128) (k : Fin 4) (hk : k.val = o + (0 : Fin 1).val) :
    broadcastTo S2000x128 (shapeCast S2000x1 (extractStridedSlice S2000x1 ![0, o] (k0_pay3 (F := Ideal) x3) hs) hc) hb (ix2 p l)
      = x3 (ix2 p k) := by
  refine (broadcastTo_a1_ab_apply _ hb p l).trans ?_
  refine (congrFun (shapeCast_self _ hc) _).trans ?_
  refine (slice2_axis1_apply o _ hs p (0 : Fin 1) k hk).trans ?_
  exact congrFun (shapeCast_self x3 _) _

/-- A difference of two blocks scaled, lane by lane, by one of two columns of the reciprocals' block. -/
theorem scaled_at (x s : Vec Ideal S2000x128 .f32) (x3 : Vec Ideal S2000x4 .f32) (o o' : Nat)
    (hcs : S2000x128.ShapeCasts S2000x128)
    (hs : S2000x4.Slices ![0, o] S2000x1) (hc : S2000x1.ShapeCasts S2000x1) (hb : S2000x1.Broadcasts S2000x128)
    (hs' : S2000x4.Slices ![0, o'] S2000x1) (hc' : S2000x1.ShapeCasts S2000x1) (hb' : S2000x1.Broadcasts S2000x128)
    (p : Fin 2000) (l : Fin 128) (k k' : Fin 4) (hk : k.val = o + (0 : Fin 1).val) (hk' : k'.val = o' + (0 : Fin 1).val) :
    mulf (subf (shapeCast S2000x128 s hcs) (k0_pay2 (F := Ideal) x))
        (select k0_pay4
          (broadcastTo S2000x128 (shapeCast S2000x1 (extractStridedSlice S2000x1 ![0, o] (k0_pay3 (F := Ideal) x3) hs) hc) hb)
          (broadcastTo S2000x128 (shapeCast S2000x1 (extractStridedSlice S2000x1 ![0, o'] (k0_pay3 (F := Ideal) x3) hs') hc') hb'))
        (ix2 p l)
      = (s (ix2 p l) - x (ix2 p l)) * (if l.val < 64 then x3 (ix2 p k) else x3 (ix2 p k')) := by
  refine congrArg₂ (· * ·) (congrArg₂ (· - ·) (congrFun (shapeCast_self s hcs) _) (congrFun (pay2_eq x) _)) ?_
  refine (congrArg₂ (Scalar.select (k0_pay4 (ix2 p l))) (col_at x3 o hs hc hb p l k hk) (col_at x3 o' hs' hc' hb' p l k' hk')).trans ?_
  exact select_lane p l _ _

/-- The backward operand: (the second endpoint sum - the embedding) times the second or fourth reciprocal. -/
theorem pay5_at (x0 x2 : Vec Ideal S2000x128 .f32) (x3 : Vec Ideal S2000x4 .f32) (p : Fin 2000) (l : Fin 128) :
    k0_pay5 (F := Ideal) x0 x2 x3 (ix2 p l)
      = (x2 (ix2 p l) - x0 (ix2 p l)) * (if l.val < 64 then x3 (ix2 p (1 : Fin 4)) else x3 (ix2 p (3 : Fin 4))) := by
  unfold k0_pay5
  exact scaled_at x0 x2 x3 1 3 _ _ _ _ _ _ _ p l 1 3 rfl rfl

/-- The forward product: (the first endpoint sum - the embedding) times the first or third reciprocal, against the
    forward weights. -/
theorem pay8_at (x0 x1 : Vec Ideal S2000x128 .f32) (x3 : Vec Ideal S2000x4 .f32) (x4 : Vec Ideal S128x128 .f32)
    (p : Fin 2000) (n : Fin 128) :
    k0_pay8 (F := Ideal) x0 x1 x3 x4 (ix2 p n)
      = ∑ k : Fin 128, ((x1 (ix2 p k) - x0 (ix2 p k)) * (if k.val < 64 then x3 (ix2 p (0 : Fin 4)) else x3 (ix2 p (2 : Fin 4))))
          * x4 (ix2 k n) := by
  unfold k0_pay8
  refine (matmul_at _ _ p n).trans ?_
  refine Finset.sum_congr rfl fun k _ => ?_
  refine congrArg₂ (· * ·) ?_ (congrFun (shapeCast_self x4 _) _)
  exact scaled_at x0 x1 x3 0 2 _ _ _ _ _ _ _ p k 0 2 rfl rfl

/-! ## The gate and the mix -/

/-- A matrix product into a zero accumulator plus a bias row, read at `(p, n)`. -/
theorem lin_at (a : FVec Ideal S2000x128 .f32) (W : FVec Ideal S128x128 .bf16) (bb : FVec Ideal S128 .f32)
    (ht : FTy.bits .bf16 < FTy.bits .f32) (hc : S128.ShapeCasts S1x128) (hb : S1x128.Broadcasts S2000x128)
    (p : Fin 2000) (n : Fin 128) :
    addf (matmul dot_S2000x128_S128x128_S2000x128_1_0_0_1_n_n none (truncf .bf16 a ht) W (constant (F := Ideal) S2000x128 .f32 0x00000000#32))
        (broadcastTo S2000x128 (shapeCast S1x128 bb hc) hb) (ix2 p n)
      = (∑ k : Fin 128, a (ix2 p k) * W (ix2 k n)) + bb (ix1 n) :=
  congrArg₂ (· + ·) (matmul_at _ W p n) (rowBias_at bb hc hb p n)

/-- The gate of half `h` of a row: the logistic of the half's lanes of `S = f + b` against the gate weights, plus the
    gate bias, laid along every lane. -/
theorem gate_at (S : FVec Ideal S2000x128 .f32) (wg : Vec Ideal S1x64 .f32) (bg : Vec Ideal S1 .f32) (o : Nat)
    (hs : S2000x128.Slices ![0, o] S2000x64) (hcw : S1x64.ShapeCasts S1x64) (hbw : S1x64.Broadcasts S2000x64)
    (hacc : (0x00000000#32 : BitVec 32) = 0x00000000#32) (hc1 : S2000.ShapeCasts S2000x1)
    (hcb : S1.ShapeCasts S1x1) (hbb : S1x1.Broadcasts S2000x1) (hcc : S2000x1.ShapeCasts S2000x1)
    (hbc : S2000x1.Broadcasts S2000x128) (h : Fin 2) (ho : o = 64 * h.val) (p : Fin 2000) (l : Fin 128)
    (f b : Fin 128 → EReal) (hS : ∀ n, S (ix2 p n) = f n + b n) :
    broadcastTo S2000x128 (shapeCast S2000x1 (logistic (addf
        (shapeCast S2000x1 (multiReduction (F := Ideal) .add [1] S2000
          (mulf (extractStridedSlice S2000x64 ![0, o] S hs) (broadcastTo S2000x64 (shapeCast S1x64 wg hcw) hbw))
          0x00000000#32 Facts₀.reduces_S2000x64_S2000 (.inl rfl) hacc) hc1)
        (broadcastTo S2000x1 (shapeCast S1x1 bg hcb) hbb))) hcc) hbc (ix2 p l)
      = Ideal.logistic ((∑ j : Fin 64, (f (lane h j) + b (lane h j)) * wg (ix2 (0 : Fin 1) j)) + bg (ix1 (0 : Fin 1))) := by
  refine (broadcastTo_a1_ab_apply _ hbc p l).trans ?_
  refine (congrFun (shapeCast_self _ hcc) _).trans ?_
  refine congrArg Ideal.logistic (congrArg₂ (· + ·) ?_ ?_)
  · refine (shapeCast_a_a1_apply _ hc1 p (0 : Fin 1)).trans ?_
    refine (laneSum_at _ hacc p).trans ?_
    refine Finset.sum_congr rfl fun j _ => congrArg₂ (· * ·) ?_ ?_
    · exact (slice2_axis1_apply o S hs p j (lane h j) (by show 64 * h.val + j.val = o + j.val; omega)).trans (hS _)
    · exact (broadcastTo_1b_ab_apply _ hbw p j).trans (congrFun (shapeCast_self wg hcw) _)
  · exact (broadcastTo_1b_ab_apply _ hbb p (0 : Fin 1)).trans (shapeCast_a_1a_apply bg hcb 0 0)

/-- The gate's mix of a forward row `f` and a backward row `b`, the gate of a lane chosen by the bit. -/
def gateMix (bit : BitVec 1) (f b : Fin 128 → EReal) (wg : Fin 64 → EReal) (bg : EReal) (l : Fin 128) : EReal :=
  Scalar.select bit
      (Ideal.logistic ((∑ j : Fin 64, (f (lane 0 j) + b (lane 0 j)) * wg j) + bg))
      (Ideal.logistic ((∑ j : Fin 64, (f (lane 1 j) + b (lane 1 j)) * wg j) + bg)) * f l
    + (1 - Scalar.select bit
      (Ideal.logistic ((∑ j : Fin 64, (f (lane 0 j) + b (lane 0 j)) * wg j) + bg))
      (Ideal.logistic ((∑ j : Fin 64, (f (lane 1 j) + b (lane 1 j)) * wg j) + bg))) * b l

/-- The stored value: the gate's mix of the forward row `m + fb` and the backward row `a · W + bb`. -/
theorem pay1_at (c : IVec S2000x128 1) (a : FVec Ideal S2000x128 .f32) (W : FVec Ideal S128x128 .bf16)
    (bb : FVec Ideal S128 .f32) (m fb : FVec Ideal S2000x128 .f32) (wg : Vec Ideal S1x64 .f32) (bg : Vec Ideal S1 .f32)
    (p : Fin 2000) (l : Fin 128) :
    k0_pay1 (F := Ideal) c a W bb m fb wg bg (ix2 p l)
      = gateMix (c (ix2 p l)) (fun n => m (ix2 p n) + fb (ix2 p n))
          (fun n => (∑ k : Fin 128, a (ix2 p k) * W (ix2 k n)) + bb (ix1 n))
          (fun j => wg (ix2 (0 : Fin 1) j)) (bg (ix1 (0 : Fin 1))) l := by
  unfold k0_pay1 gateMix
  have key : ∀ (g g' one fv f' bv b' : EReal), g = g' → one = 1 → fv = f' → bv = b' →
      g * fv + (one - g) * bv = g' * f' + (1 - g') * b' := by
    intro g g' one fv f' bv b' h1 h2 h3 h4; rw [h1, h2, h3, h4]
  refine key _ _ _ _ _ _ _ ?_ ?_ rfl ?_
  · refine congrArg₂ (Scalar.select (c (ix2 p l))) ?_ ?_
    · refine gate_at _ wg bg 0 _ _ _ _ _ _ _ _ _ 0 rfl p l (fun n => m (ix2 p n) + fb (ix2 p n))
        (fun n => (∑ k : Fin 128, a (ix2 p k) * W (ix2 k n)) + bb (ix1 n)) ?_
      exact fun n => congrArg₂ (· + ·) rfl (lin_at a W bb _ _ _ p n)
    · refine gate_at _ wg bg 64 _ _ _ _ _ _ _ _ _ 1 rfl p l (fun n => m (ix2 p n) + fb (ix2 p n))
        (fun n => (∑ k : Fin 128, a (ix2 p k) * W (ix2 k n)) + bb (ix1 n)) ?_
      exact fun n => congrArg₂ (· + ·) rfl (lin_at a W bb _ _ _ p n)
  · exact Ideal.ofBits_one_f32
  · exact lin_at a W bb _ _ _ p l

/-- The zero offsets of a whole-block rectangle, rank two and rank one. -/
theorem hz2 : (![0, 0] : Fin 2 → Nat) = fun _ => 0 := funext fun a => by fin_cases a <;> rfl
theorem hz1 : (![0] : Fin 1 → Nat) = fun _ => 0 := funext fun a => by fin_cases a <;> rfl

/-- What the body leaves in the output block, read at row `p` and lane `l`: the packed row `p` of the input blocks
    through `rowOut`. -/
theorem out_row (x0 x1 x2 : Vec Ideal S2000x128 .f32) (x3 : Vec Ideal S2000x4 .f32) (x4 : Vec Ideal S128x128 .f32)
    (x5 : Vec Ideal S128 .f32) (x6 : Vec Ideal S128x128 .f32) (x7 : Vec Ideal S128 .f32) (x8 : Vec Ideal S1x64 .f32)
    (x9 : Vec Ideal S1 .f32) (p : Fin 2000) (l : Fin 128) :
    out0_10 (F := Ideal) x0 x1 x2 x3 x4 x5 x6 x7 x8 x9 (ix2 p l)
      = rowOut (fun k => x0 (ix2 p k)) (fun k => x1 (ix2 p k)) (fun k => x2 (ix2 p k)) (fun a => x3 (ix2 p a))
          (fun k n => x4 (ix2 k n)) (fun n => x5 (ix1 n)) (fun k n => x6 (ix2 k n)) (fun n => x7 (ix1 n))
          (fun k => x8 (ix2 (0 : Fin 1) k)) (x9 (ix1 (0 : Fin 1))) l := by
  unfold out0_10
  rw [View.canon_unit_zero hz2]
  simp only [View.ld_unit_zero (S := S2000x128) hz2, View.ld_unit_zero (S := S2000x4) hz2,
    View.ld_unit_zero (S := S128x128) hz2, View.ld_unit_zero (S := S128) hz1, View.ld_unit_zero (S := S1x64) hz2,
    View.ld_unit_zero (S := S1) hz1]
  refine (pay1_at _ _ _ _ _ _ _ _ p l).trans ?_
  unfold gateMix rowOut
  simp only [pay8_at, pay9_at, pay5_at, pay6_at, pay7_eq, select_lane]

end Cert.KernelIdeal.Payload

end
-- ==== Proof.KCover.lean ====
import proofs.«400100_j65824668779103_2_alg».proof.Proof.KArrays
import proofs.«400100_j65824668779103_2_alg».proof.Proof.KPayload
import Idealize.ShloMosaic.Lib.Pipeline.Value
import Idealize.ShloMosaic.Lib.StableHlo.Run

noncomputable section

namespace Cert.KernelIdeal.Cover

open Cert.KernelIdeal Cert.KernelIdeal.Gen Cert.KernelIdeal.Arr Idealize.ShloMosaic Idealize.ShloMosaic.TcCoe Idealize.SL.Sem
open Idealize.ShloMosaic.ValueIdx Cert.EdgeGate

variable (m : (ℓ : Loc nD τ sig) → Buf (Elt Ideal) ℓ)

/-- Packed row `r` of the region's operands through the body, read at lane `l`. -/
def packedRow (c : Dev nD) (r : Fin 500000) (l : Fin 128) : EReal :=
  rowOut (fun k => eeP m c (ix2 r k)) (fun k => suP m c (ix2 r k)) (fun k => svP m c (ix2 r k))
    (fun a => duvP m c (ix2 r a)) (fun k n => wf2 m c (ix2 k n)) (fun n => bf2 m c (ix1 n))
    (fun k n => wb2 m c (ix2 k n)) (fun n => bb2 m c (ix1 n)) (fun k => wgT m c (ix2 (0 : Fin 1) k))
    (bgA m c (ix1 (0 : Fin 1))) l

/-- The packed output array as one function of the operands: entry (r, l) is packed row `r` at lane `l`. -/
abbrev packedOut (c : Dev nD) : FVec Ideal S500000x128 .f32 := fun i => packedRow m c (i 0) (i 1)

/-- The grid has 250 points. -/
theorem points : cfg0.N = 250 := N_0

/-- Packed row `2000 t + p`: row `p` of the block of 2000 rows that grid point `t` works on. -/
def rowAt (t : Fin cfg0.N) (p : Fin 2000) : Fin 500000 :=
  ⟨2000 * t.val + p.val, by have := t.isLt; have := p.isLt; have := points; omega⟩

/-- The printed index maps, decided over the grid: the four row-blocked inputs and the output sit at block (t, 0);
    the weights, biases and the gate's row and bias are whole arrays at block 0. -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ (win0_8.index t (0 : Fin 2) = 0 ∧ win0_8.index t (1 : Fin 2) = 0)
    ∧ win0_9.index t (0 : Fin 1) = 0
    ∧ (win0_10.index t (0 : Fin 2) = t.val ∧ win0_10.index t (1 : Fin 2) = 0) :=
  (by decide +kernel : ∀ t : Fin grid0.N, _)

/-- Window 0's block at point `t` holds rows `2000 t … 2000 t + 1999` of its array. -/
theorem block0_read (A : FVec Ideal S500000x128 .f32) (t : Fin cfg0.N) (p : Fin 2000) (k : Fin 128) :
    ((cfg0.win 0).blk t).view.read (Elt Ideal) A (ix2 p k) = A (ix2 (rowAt t p) k) := by
  have h := (block_index t).1
  rw [View.read_apply]
  show A _ = A _
  refine congrArg A (funext fun b => Fin.ext ?_)
  match b with
  | ⟨0, _⟩ => show win0_0.index t (0 : Fin 2) * 2000 + 1 * p.val = 2000 * t.val + p.val; rw [h.1]; omega
  | ⟨1, _⟩ => show win0_0.index t (1 : Fin 2) * 128 + 1 * k.val = k.val; rw [h.2]; omega

/-- Window 1's block at point `t` holds rows `2000 t … 2000 t + 1999` of its array. -/
theorem block1_read (A : FVec Ideal S500000x128 .f32) (t : Fin cfg0.N) (p : Fin 2000) (k : Fin 128) :
    ((cfg0.win 1).blk t).view.read (Elt Ideal) A (ix2 p k) = A (ix2 (rowAt t p) k) := by
  have h := (block_index t).2.1
  rw [View.read_apply]
  show A _ = A _
  refine congrArg A (funext fun b => Fin.ext ?_)
  match b with
  | ⟨0, _⟩ => show win0_1.index t (0 : Fin 2) * 2000 + 1 * p.val = 2000 * t.val + p.val; rw [h.1]; omega
  | ⟨1, _⟩ => show win0_1.index t (1 : Fin 2) * 128 + 1 * k.val = k.val; rw [h.2]; omega

/-- Window 2's block at point `t` holds rows `2000 t … 2000 t + 1999` of its array. -/
theorem block2_read (A : FVec Ideal S500000x128 .f32) (t : Fin cfg0.N) (p : Fin 2000) (k : Fin 128) :
    ((cfg0.win 2).blk t).view.read (Elt Ideal) A (ix2 p k) = A (ix2 (rowAt t p) k) := by
  have h := (block_index t).2.2.1
  rw [View.read_apply]
  show A _ = A _
  refine congrArg A (funext fun b => Fin.ext ?_)
  match b with
  | ⟨0, _⟩ => show win0_2.index t (0 : Fin 2) * 2000 + 1 * p.val = 2000 * t.val + p.val; rw [h.1]; omega
  | ⟨1, _⟩ => show win0_2.index t (1 : Fin 2) * 128 + 1 * k.val = k.val; rw [h.2]; omega

/-- Window 3's block at point `t` holds rows `2000 t … 2000 t + 1999` of its array. -/
theorem block3_read (A : FVec Ideal S500000x4 .f32) (t : Fin cfg0.N) (p : Fin 2000) (a : Fin 4) :
    ((cfg0.win 3).blk t).view.read (Elt Ideal) A (ix2 p a) = A (ix2 (rowAt t p) a) := by
  have h := (block_index t).2.2.2.1
  rw [View.read_apply]
  show A _ = A _
  refine congrArg A (funext fun b => Fin.ext ?_)
  match b with
  | ⟨0, _⟩ => show win0_3.index t (0 : Fin 2) * 2000 + 1 * p.val = 2000 * t.val + p.val; rw [h.1]; omega
  | ⟨1, _⟩ => show win0_3.index t (1 : Fin 2) * 4 + 1 * a.val = a.val; rw [h.2]; omega

/-- Window 4's block at any point is its whole array. -/
theorem block4_read (A : FVec Ideal S128x128 .f32) (t : Fin cfg0.N) (k n : Fin 128) :
    ((cfg0.win 4).blk t).view.read (Elt Ideal) A (ix2 k n) = A (ix2 k n) := by
  have h := (block_index t).2.2.2.2.1
  rw [View.read_apply]
  show A _ = A _
  refine congrArg A (funext fun b => Fin.ext ?_)
  match b with
  | ⟨0, _⟩ => show win0_4.index t (0 : Fin 2) * 128 + 1 * k.val = k.val; rw [h.1]; omega
  | ⟨1, _⟩ => show win0_4.index t (1 : Fin 2) * 128 + 1 * n.val = n.val; rw [h.2]; omega

/-- Window 5's block at any point is its whole array. -/
theorem block5_read (A : FVec Ideal S128 .f32) (t : Fin cfg0.N) (n : Fin 128) :
    ((cfg0.win 5).blk t).view.read (Elt Ideal) A (ix1 n) = A (ix1 n) := by
  have h := (block_index t).2.2.2.2.2.1
  rw [View.read_apply]
  show A _ = A _
  refine congrArg A (funext fun b => Fin.ext ?_)
  match b with
  | ⟨0, _⟩ => show win0_5.index t (0 : Fin 1) * 128 + 1 * n.val = n.val; rw [h]; omega

/-- Window 6's block at any point is its whole array. -/
theorem block6_read (A : FVec Ideal S128x128 .f32) (t : Fin cfg0.N) (k n : Fin 128) :
    ((cfg0.win 6).blk t).view.read (Elt Ideal) A (ix2 k n) = A (ix2 k n) := by
  have h := (block_index t).2.2.2.2.2.2.1
  rw [View.read_apply]
  show A _ = A _
  refine congrArg A (funext fun b => Fin.ext ?_)
  match b with
  | ⟨0, _⟩ => show win0_6.index t (0 : Fin 2) * 128 + 1 * k.val = k.val; rw [h.1]; omega
  | ⟨1, _⟩ => show win0_6.index t (1 : Fin 2) * 128 + 1 * n.val = n.val; rw [h.2]; omega

/-- Window 7's block at any point is its whole array. -/
theorem block7_read (A : FVec Ideal S128 .f32) (t : Fin cfg0.N) (n : Fin 128) :
    ((cfg0.win 7).blk t).view.read (Elt Ideal) A (ix1 n) = A (ix1 n) := by
  have h := (block_index t).2.2.2.2.2.2.2.1
  rw [View.read_apply]
  show A _ = A _
  refine congrArg A (funext fun b => Fin.ext ?_)
  match b with
  | ⟨0, _⟩ => show win0_7.index t (0 : Fin 1) * 128 + 1 * n.val = n.val; rw [h]; omega

/-- Window 8's block at any point is its whole array. -/
theorem block8_read (A : FVec Ideal S1x64 .f32) (t : Fin cfg0.N) (z : Fin 1) (k : Fin 64) :
    ((cfg0.win 8).blk t).view.read (Elt Ideal) A (ix2 z k) = A (ix2 z k) := by
  have h := (block_index t).2.2.2.2.2.2.2.2.1
  rw [View.read_apply]
  show A _ = A _
  refine congrArg A (funext fun b => Fin.ext ?_)
  match b with
  | ⟨0, _⟩ => show win0_8.index t (0 : Fin 2) * 1 + 1 * z.val = z.val; rw [h.1]; omega
  | ⟨1, _⟩ => show win0_8.index t (1 : Fin 2) * 64 + 1 * k.val = k.val; rw [h.2]; omega

/-- Window 9's block at any point is its whole array. -/
theorem block9_read (A : FVec Ideal S1 .f32) (t : Fin cfg0.N) (z : Fin 1) :
    ((cfg0.win 9).blk t).view.read (Elt Ideal) A (ix1 z) = A (ix1 z) := by
  have h := (block_index t).2.2.2.2.2.2.2.2.2.1
  rw [View.read_apply]
  show A _ = A _
  refine congrArg A (funext fun b => Fin.ext ?_)
  match b with
  | ⟨0, _⟩ => show win0_9.index t (0 : Fin 1) * 1 + 1 * z.val = z.val; rw [h]; omega

/-- The region's input blocks at point `t`, read at literal coordinates, as entries of the operands: the four
    row-blocked operands at packed row `2000 t + p`, the weights, biases and the gate's row and bias whole. -/
theorem blk_ee (c : Dev nD) (t : Fin cfg0.N) (p : Fin 2000) (k : Fin 128) :
    (iblk m c 0 t : Vec Ideal S2000x128 .f32) (ix2 p k) = eeP m c (ix2 (rowAt t p) k) := block0_read (eeP m c) t p k
theorem blk_su (c : Dev nD) (t : Fin cfg0.N) (p : Fin 2000) (k : Fin 128) :
    (iblk m c 1 t : Vec Ideal S2000x128 .f32) (ix2 p k) = suP m c (ix2 (rowAt t p) k) := block1_read (suP m c) t p k
theorem blk_sv (c : Dev nD) (t : Fin cfg0.N) (p : Fin 2000) (k : Fin 128) :
    (iblk m c 2 t : Vec Ideal S2000x128 .f32) (ix2 p k) = svP m c (ix2 (rowAt t p) k) := block2_read (svP m c) t p k
theorem blk_duv (c : Dev nD) (t : Fin cfg0.N) (p : Fin 2000) (a : Fin 4) :
    (iblk m c 3 t : Vec Ideal S2000x4 .f32) (ix2 p a) = duvP m c (ix2 (rowAt t p) a) := block3_read (duvP m c) t p a
theorem blk_wf (c : Dev nD) (t : Fin cfg0.N) (k n : Fin 128) :
    (iblk m c 4 t : Vec Ideal S128x128 .f32) (ix2 k n) = wf2 m c (ix2 k n) := block4_read (wf2 m c) t k n
theorem blk_bf (c : Dev nD) (t : Fin cfg0.N) (n : Fin 128) :
    (iblk m c 5 t : Vec Ideal S128 .f32) (ix1 n) = bf2 m c (ix1 n) := block5_read (bf2 m c) t n
theorem blk_wb (c : Dev nD) (t : Fin cfg0.N) (k n : Fin 128) :
    (iblk m c 6 t : Vec Ideal S128x128 .f32) (ix2 k n) = wb2 m c (ix2 k n) := block6_read (wb2 m c) t k n
theorem blk_bb (c : Dev nD) (t : Fin cfg0.N) (n : Fin 128) :
    (iblk m c 7 t : Vec Ideal S128 .f32) (ix1 n) = bb2 m c (ix1 n) := block7_read (bb2 m c) t n
theorem blk_wg (c : Dev nD) (t : Fin cfg0.N) (z : Fin 1) (k : Fin 64) :
    (iblk m c 8 t : Vec Ideal S1x64 .f32) (ix2 z k) = wgT m c (ix2 z k) := block8_read (wgT m c) t z k
theorem blk_bg (c : Dev nD) (t : Fin cfg0.N) (z : Fin 1) :
    (iblk m c 9 t : Vec Ideal S1 .f32) (ix1 z) = bgA m c (ix1 z) := block9_read (bgA m c) t z

/-- `rowOut` of equal arguments. -/
theorem rowOut_congr {x x' s s' u u' : Fin 128 → EReal} {q q' : Fin 4 → EReal} {Wf Wf' Wb Wb' : Fin 128 → Fin 128 → EReal}
    {bf bf' bb bb' : Fin 128 → EReal} {wg wg' : Fin 64 → EReal} {bg bg' : EReal} (l : Fin 128)
    (hx : x = x') (hs : s = s') (hu : u = u') (hq : q = q') (hWf : Wf = Wf') (hbf : bf = bf') (hWb : Wb = Wb')
    (hbb : bb = bb') (hwg : wg = wg') (hbg : bg = bg') :
    rowOut x s u q Wf bf Wb bb wg bg l = rowOut x' s' u' q' Wf' bf' Wb' bb' wg' bg' l := by
  subst hx hs hu hq hWf hbf hWb hbb hwg hbg; rfl

/-- What the body leaves at row `p`, lane `l` of the output block at point `t`: packed row `2000 t + p` through the body. -/
theorem out_at (c : Dev nD) (t : Fin cfg0.N) (p : Fin 2000) (l : Fin 128) :
    out0_10 (F := Ideal) (iblk m c 0 t) (iblk m c 1 t) (iblk m c 2 t) (iblk m c 3 t) (iblk m c 4 t) (iblk m c 5 t)
        (iblk m c 6 t) (iblk m c 7 t) (iblk m c 8 t) (iblk m c 9 t) (ix2 p l)
      = packedRow m c (rowAt t p) l := by
  refine (Payload.out_row (iblk m c 0 t) (iblk m c 1 t) (iblk m c 2 t) (iblk m c 3 t) (iblk m c 4 t) (iblk m c 5 t)
    (iblk m c 6 t) (iblk m c 7 t) (iblk m c 8 t) (iblk m c 9 t) p l).trans ?_
  unfold packedRow
  exact rowOut_congr l (funext (blk_ee m c t p)) (funext (blk_su m c t p)) (funext (blk_sv m c t p))
    (funext (blk_duv m c t p)) (funext fun k => funext (blk_wf m c t k)) (funext (blk_bf m c t))
    (funext fun k => funext (blk_wb m c t k)) (funext (blk_bb m c t)) (funext (blk_wg m c t 0)) (blk_bg m c t 0)

/-- What point `t` writes back is block `t` of the packed output. -/
theorem writes_block (c : Dev nD) (t : Fin cfg0.N) :
    (dats m 0 c).flushed 10 t = ((cfg0.win 10).blk t).view.read (Elt Ideal) (packedOut m c) := by
  show (cfg0.win 10).cut (grid0.coords t) ((dats m 0 c).after 10 t) = _
  rw [after0_10]
  have h := (block_index t).2.2.2.2.2.2.2.2.2.2
  have key : ∀ y : S2000x128.Idx,
      out0_10 (F := Ideal) (iblk m c 0 t) (iblk m c 1 t) (iblk m c 2 t) (iblk m c 3 t) (iblk m c 4 t) (iblk m c 5 t)
          (iblk m c 6 t) (iblk m c 7 t) (iblk m c 8 t) (iblk m c 9 t) y
        = packedOut m c (((cfg0.win 10).blk t).view.emb y) := by
    intro y
    obtain ⟨p, l, rfl⟩ : ∃ (p : Fin 2000) (l : Fin 128), y = ix2 p l := ⟨y 0, y 1, eq_ix2 y⟩
    rw [out_at]
    show packedRow m c (rowAt t p) l
      = packedRow m c (((cfg0.win 10).blk t).view.emb (ix2 p l) 0) (((cfg0.win 10).blk t).view.emb (ix2 p l) 1)
    congr 1 <;> apply Fin.ext
    · show 2000 * t.val + p.val = win0_10.index t (0 : Fin 2) * 2000 + 1 * p.val; rw [h.1]; omega
    · show l.val = win0_10.index t (1 : Fin 2) * 128 + 1 * l.val; rw [h.2]; omega
  funext y
  exact key y

/-- An entry of the packed output is in point `t`'s block iff each coordinate is in the block's range on its axis. -/
theorem mem_block_rows (t : Fin cfg0.N) (i : S500000x128.Idx) :
    i ∈ ((cfg0.win 10).blk t).view.set ↔ ∀ a : Fin 2, win0_10.index t a * S2000x128.size a ≤ (i a).val
      ∧ (i a).val < win0_10.index t a * S2000x128.size a + S2000x128.size a := by
  show i ∈ ((View.whole main_v49).slice (win0_10.rect t)).set ↔ _
  rw [View.set_slice_whole, Rect.mem_set_unit]
  exact Iff.rfl

/-- The 250 blocks of 2000 rows cover the packed output: row `r` is in the block of point `r / 2000`. -/
theorem rows_covered (i : S500000x128.Idx) :
    ∃ t : Fin cfg0.N, (cfg0.win 10).flush t = true ∧ i ∈ ((cfg0.win 10).blk t).view.set := by
  have hi0 : (i 0).val < 500000 := (i 0).isLt
  have hi1 : (i 1).val < 128 := (i 1).isLt
  have hN := points
  refine ⟨⟨(i 0).val / 2000, by omega⟩, flush0_10 _, ?_⟩
  have h := (block_index ⟨(i 0).val / 2000, by omega⟩).2.2.2.2.2.2.2.2.2.2
  rw [mem_block_rows]
  intro a
  match a with
  | ⟨0, _⟩ =>
    show win0_10.index ⟨(i 0).val / 2000, _⟩ (0 : Fin 2) * 2000 ≤ (i 0).val
      ∧ (i 0).val < win0_10.index ⟨(i 0).val / 2000, _⟩ (0 : Fin 2) * 2000 + 2000
    rw [h.1]; show (i 0).val / 2000 * 2000 ≤ (i 0).val ∧ (i 0).val < (i 0).val / 2000 * 2000 + 2000; omega
  | ⟨1, _⟩ =>
    show win0_10.index ⟨(i 0).val / 2000, _⟩ (1 : Fin 2) * 128 ≤ (i 1).val
      ∧ (i 1).val < win0_10.index ⟨(i 0).val / 2000, _⟩ (1 : Fin 2) * 128 + 128
    rw [h.2]; omega

/-- The packed output array after the region: every entry is its packed row through the body. -/
theorem packed_result (c : Dev nD) : (dats m 0 c).arrAt 10 cfg0.N = packedOut m c :=
  (dats m 0 c).arrAt_eq_of_cover 10 (packedOut m c) (fun t _ => writes_block m c t) rows_covered

/-- The result array is the packed output re-cut into 1000000 rows of 64 lanes: the one host line after the region. -/
theorem result_recut (c : Dev nD) : KV m c = shapeCast S1000000x64 (packedOut m c) shapeCasts_S500000x128_S1000000x64 := by
  show Pipeline.afterTail₀ cfgs (dats m) 0 (V0 m) [hostOps1] c main_v50 = _
  unfold Pipeline.afterTail₀
  show StableHlo.after hostOps1 _ (Proc.devRef .tc main_v50) = _
  after_results
  have e : Pipeline.withArrays (cfgs 0).spec c (V0 m c) (fun w => (dats m 0 c).arrAt w (cfgs 0).N) (Proc.devRef .tc main_v49)
      = packedOut m c :=
    (Pipeline.withArrays_arr spec0 launch0.win.arr_inj c _ _ 10).trans (packed_result m c)
  rw [e]
  rfl

/-- The result array at edge `2 r + h`, column `j`: packed row `r` of the region's operands through `rowOut`, read at
    lane `64 h + j` (the 250 blocks of 2000 packed rows cover the packed output; the final reshape splits each packed row
    into its two edges). -/
theorem tail_value (c : Dev nD) (r : Fin 500000) (h : Fin 2) (j : Fin 64) :
    KV m c (ix2 (edge r h) j)
      = rowOut (fun k => eeP m c (ix2 r k)) (fun k => suP m c (ix2 r k)) (fun k => svP m c (ix2 r k))
          (fun a => duvP m c (ix2 r a)) (fun k n => wf2 m c (ix2 k n)) (fun n => bf2 m c (ix1 n))
          (fun k n => wb2 m c (ix2 k n)) (fun n => bb2 m c (ix1 n)) (fun k => wgT m c (ix2 (0 : Fin 1) k))
          (bgA m c (ix1 (0 : Fin 1))) (lane h j) := by
  rw [result_recut]
  refine (shapeCast_apply (packedOut m c) shapeCasts_S500000x128_S1000000x64 (ix2 (edge r h) j) (ix2 r (lane h j)) ?_).trans ?_
  · rw [Shape.rowMajor_val_two, Shape.rowMajor_val_two]
    show r.val * 128 + (64 * h.val + j.val) = (2 * r.val + h.val) * 64 + j.val
    omega
  · show packedRow m c r (lane h j) = _
    unfold packedRow
    rfl

end Cert.KernelIdeal.Cover

end
-- ==== Proof.KHostW.lean ====
import proofs.«400100_j65824668779103_2_alg».proof.Proof.KArrays
import proofs.«400100_j65824668779103_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.HostW

open Cert.KernelIdeal Cert.KernelIdeal.Gen Cert.KernelIdeal.Arr Idealize.ShloMosaic Idealize.ShloMosaic.TcCoe Idealize.SL.Sem
open Idealize.ShloMosaic.ValueIdx Cert.EdgeGate

variable (m : (ℓ : Loc nD τ sig) → Buf (Elt Ideal) ℓ)

/-! ## Two pieces side by side, read at coordinates -/

section Cat
variable {α : Type}

/-- Two 64 x 64 pieces side by side along the columns: a column below 64 reads the first. -/
theorem cat1_left (X Y : S64x64.Idx → α) (h : Shape.Concatenates [S64x64, S64x64] S64x128 1) (k : Fin 64) (n : Fin 128)
    (hn : n.val < 64) : concatenate S64x128 1 [⟨S64x64, X⟩, ⟨S64x64, Y⟩] h (ix2 k n) = X (ix2 k ⟨n.val, hn⟩) :=
  concatenate_pair_apply_left 1 X Y h (ix2 k n) rfl (ix2 k ⟨n.val, hn⟩) fun b => match b with | ⟨0, _⟩ => rfl | ⟨1, _⟩ => rfl

/-- … and a column from 64 on reads the second, 64 columns back. -/
theorem cat1_right (X Y : S64x64.Idx → α) (h : Shape.Concatenates [S64x64, S64x64] S64x128 1) (k : Fin 64) (n : Fin 128)
    (hn : 64 ≤ n.val) :
    concatenate S64x128 1 [⟨S64x64, X⟩, ⟨S64x64, Y⟩] h (ix2 k n) = Y (ix2 k ⟨n.val - 64, by have := n.isLt; omega⟩) :=
  concatenate_pair_apply_right 1 X Y h (ix2 k n) rfl rfl (ix2 k ⟨n.val - 64, by have := n.isLt; omega⟩)
    (fun b => match b with | ⟨0, _⟩ => fun _ => rfl | ⟨1, _⟩ => fun hb => absurd rfl hb)
    (by show n.val - 64 + 64 = n.val; omega)

/-- Two 64 x 128 pieces one above the other: a row below 64 reads the first. -/
theorem cat0_left (X Y : S64x128.Idx → α) (h : Shape.Concatenates [S64x128, S64x128] S128x128 0) (k n : Fin 128)
    (hk : k.val < 64) : concatenate S128x128 0 [⟨S64x128, X⟩, ⟨S64x128, Y⟩] h (ix2 k n) = X (ix2 ⟨k.val, hk⟩ n) :=
  concatenate_pair_apply_left 0 X Y h (ix2 k n) rfl (ix2 ⟨k.val, hk⟩ n) fun b => match b with | ⟨0, _⟩ => rfl | ⟨1, _⟩ => rfl

/-- … and a row from 64 on reads the second, 64 rows up. -/
theorem cat0_right (X Y : S64x128.Idx → α) (h : Shape.Concatenates [S64x128, S64x128] S128x128 0) (k n : Fin 128)
    (hk : 64 ≤ k.val) :
    concatenate S128x128 0 [⟨S64x128, X⟩, ⟨S64x128, Y⟩] h (ix2 k n) = Y (ix2 ⟨k.val - 64, by have := k.isLt; omega⟩ n) :=
  concatenate_pair_apply_right 0 X Y h (ix2 k n) rfl rfl (ix2 ⟨k.val - 64, by have := k.isLt; omega⟩ n)
    (fun b => match b with | ⟨0, _⟩ => fun hb => absurd rfl hb | ⟨1, _⟩ => fun _ => rfl)
    (by show k.val - 64 + 64 = k.val; omega)

/-- Two vectors of 64 end to end: a position below 64 reads the first. -/
theorem catv_left (X Y : S64.Idx → α) (h : Shape.Concatenates [S64, S64] S128 0) (n : Fin 128)
    (hn : n.val < 64) : concatenate S128 0 [⟨S64, X⟩, ⟨S64, Y⟩] h (ix1 n) = X (ix1 ⟨n.val, hn⟩) :=
  concatenate_pair_apply_left 0 X Y h (ix1 n) rfl (ix1 ⟨n.val, hn⟩) fun b => match b with | ⟨0, _⟩ => rfl

/-- … and a position from 64 on reads the second, 64 back. -/
theorem catv_right (X Y : S64.Idx → α) (h : Shape.Concatenates [S64, S64] S128 0) (n : Fin 128)
    (hn : 64 ≤ n.val) :
    concatenate S128 0 [⟨S64, X⟩, ⟨S64, Y⟩] h (ix1 n) = Y (ix1 ⟨n.val - 64, by have := n.isLt; omega⟩) :=
  concatenate_pair_apply_right 0 X Y h (ix1 n) rfl rfl (ix1 ⟨n.val - 64, by have := n.isLt; omega⟩)
    (fun b => match b with | ⟨0, _⟩ => fun hb => absurd rfl hb)
    (by show n.val - 64 + 64 = n.val; omega)

end Cat

/-- The block-diagonal arrangement of a 64 x 64 matrix with a zero matrix, read at coordinates. -/
theorem blockDiag_apply (W Z : S64x64.Idx → EReal) (hZ : ∀ i, Z i = 0)
    (h1 : Shape.Concatenates [S64x64, S64x64] S64x128 1) (h0 : Shape.Concatenates [S64x128, S64x128] S128x128 0) (k n : Fin 128) :
    concatenate S128x128 0
      [⟨S64x128, concatenate S64x128 1 [⟨S64x64, W⟩, ⟨S64x64, Z⟩] h1⟩,
       ⟨S64x128, concatenate S64x128 1 [⟨S64x64, Z⟩, ⟨S64x64, W⟩] h1⟩] h0 (ix2 k n)
      = blockDiag (fun k n => W (ix2 k n)) k n := by
  unfold blockDiag
  by_cases hk : k.val < 64
  · rw [cat0_left _ _ h0 k n hk, dif_pos hk]
    by_cases hn : n.val < 64
    · rw [cat1_left _ _ h1 _ n hn, dif_pos hn]
    · rw [cat1_right _ _ h1 _ n (Nat.le_of_not_lt hn), dif_neg hn, hZ]
  · rw [cat0_right _ _ h0 k n (Nat.le_of_not_lt hk), dif_neg hk]
    by_cases hn : n.val < 64
    · rw [cat1_left _ _ h1 _ n hn, dif_pos hn, hZ]
    · rw [cat1_right _ _ h1 _ n (Nat.le_of_not_lt hn), dif_neg hn]

/-- A vector of 64 doubled, read at a position. -/
theorem pack_apply (X : S64.Idx → EReal) (h : Shape.Concatenates [S64, S64] S128 0) (n : Fin 128) :
    concatenate S128 0 [⟨S64, X⟩, ⟨S64, X⟩] h (ix1 n) = pack (fun n => X (ix1 n)) (fun n => X (ix1 n)) n := by
  unfold pack
  by_cases hn : n.val < 64
  · rw [catv_left _ _ h n hn, dif_pos hn]
  · rw [catv_right _ _ h n (Nat.le_of_not_lt hn), dif_neg hn]

/-- The zero matrix the program builds: the f32 zero constant broadcast. -/
theorem zero64_apply (i : S64x64.Idx) :
    broadcastInDim S64x64 ![] bcast_S_S64x64 (constant (F := Ideal) S_ .f32 0x00000000#32) i = 0 := by
  show Ideal.ofBits .f32 0x00000000#32 = 0
  exact Ideal.ofBits_zero_f32

/-- The packed reshape: row `r` of the 500000 x 128 view holds rows `2 r` and `2 r + 1` of the 1000000 x 64 array. -/
theorem reshape_row (X : S1000000x64.Idx → EReal) (h : S1000000x64.ShapeCasts S500000x128) (r : Fin 500000) (k : Fin 128) :
    shapeCast S500000x128 X h (ix2 r k) = pack (fun k => X (ix2 (edge r 0) k)) (fun k => X (ix2 (edge r 1) k)) k := by
  unfold pack
  by_cases hk : k.val < 64
  · rw [dif_pos hk]
    refine shapeCast_apply X h (ix2 r k) (ix2 (edge r 0) ⟨k.val, hk⟩) ?_
    rw [Shape.rowMajor_val_two, Shape.rowMajor_val_two]
    show (2 * r.val + 0) * 64 + k.val = r.val * 128 + k.val
    omega
  · rw [dif_neg hk]
    refine shapeCast_apply X h (ix2 r k) (ix2 (edge r 1) ⟨k.val - 64, by have := k.isLt; omega⟩) ?_
    rw [Shape.rowMajor_val_two, Shape.rowMajor_val_two]
    show (2 * r.val + 1) * 64 + (k.val - 64) = r.val * 128 + k.val
    omega

/-! ## The host lines before the region, split at the last stretch -/

/-- A list of seven lists flattened is the first six flattened, then the seventh. -/
theorem flatten7 {α : Type} (a0 a1 a2 a3 a4 a5 a6 : List α) :
    List.flatten [a0, a1, a2, a3, a4, a5, a6] = List.flatten [a0, a1, a2, a3, a4, a5] ++ a6 := by
  simp only [List.flatten_cons, List.flatten_nil, List.append_nil, List.append_assoc]

/-- The buffers' contents after every host stretch but the last. -/
def Pre (c : Dev nD) : Valuation τ sig (Elt Ideal) :=
  StableHlo.after (List.flatten [hostOps0, hostOps0_1, hostOps0_2, hostOps0_3, hostOps0_4, hostOps0_5]) (fun b => m (c, b))

/-- What the region finds is the last stretch run from there. -/
theorem V0_split (c : Dev nD) : V0 m c = StableHlo.after hostOps0_6 (Pre m c) := by
  unfold Pre
  show StableHlo.after (List.flatten [hostOps0, hostOps0_1, hostOps0_2, hostOps0_3, hostOps0_4, hostOps0_5, hostOps0_6]) _ = _
  rw [flatten7, StableHlo.after_append]

/-- The last stretch writes no argument: each holds before it what the region finds, its launch contents. -/
theorem pre_arg0 (c : Dev nD) : Pre m c (Proc.devRef .tc main_arg0) = a0 m c := by
  refine Eq.trans ?_ (V_main_arg0 m c)
  show _ = V0 m c (Proc.devRef .tc main_arg0)
  rw [V0_split]
  generalize Pre m c = P
  simp only [hostOps0_6]
  after_results

theorem pre_arg1 (c : Dev nD) : Pre m c (Proc.devRef .tc main_arg1) = a1 m c := by
  refine Eq.trans ?_ (V_main_arg1 m c)
  show _ = V0 m c (Proc.devRef .tc main_arg1)
  rw [V0_split]
  generalize Pre m c = P
  simp only [hostOps0_6]
  after_results

theorem pre_arg2 (c : Dev nD) : Pre m c (Proc.devRef .tc main_arg2) = a2 m c := by
  refine Eq.trans ?_ (V_main_arg2 m c)
  show _ = V0 m c (Proc.devRef .tc main_arg2)
  rw [V0_split]
  generalize Pre m c = P
  simp only [hostOps0_6]
  after_results

theorem pre_arg3 (c : Dev nD) : Pre m c (Proc.devRef .tc main_arg3) = a3 m c := by
  refine Eq.trans ?_ (V_main_arg3 m c)
  show _ = V0 m c (Proc.devRef .tc main_arg3)
  rw [V0_split]
  generalize Pre m c = P
  simp only [hostOps0_6]
  after_results

theorem pre_arg4 (c : Dev nD) : Pre m c (Proc.devRef .tc main_arg4) = a4 m c := by
  refine Eq.trans ?_ (V_main_arg4 m c)
  show _ = V0 m c (Proc.devRef .tc main_arg4)
  rw [V0_split]
  generalize Pre m c = P
  simp only [hostOps0_6]
  after_results

theorem pre_arg5 (c : Dev nD) : Pre m c (Proc.devRef .tc main_arg5) = a5 m c := by
  refine Eq.trans ?_ (V_main_arg5 m c)
  show _ = V0 m c (Proc.devRef .tc main_arg5)
  rw [V0_split]
  generalize Pre m c = P
  simp only [hostOps0_6]
  after_results

/-! ## Each operand as the last stretch's term of the arguments -/

/-- The packed embeddings are the embeddings reshaped. -/
theorem eeP_V (c : Dev nD) : eeP m c = shapeCast S500000x128 (a0 m c) shapeCasts_S1000000x64_S500000x128 := by
  show V0 m c (Proc.devRef .tc main_v31) = _
  rw [V0_split]
  have h := pre_arg0 m c
  generalize Pre m c = P at h ⊢
  simp only [hostOps0_6]
  after_results
  rw [h]
  rfl

/-- The forward weights: two rows of blocks, `[Wf, 0]` above `[0, Wf]`. -/
theorem wf2_V (c : Dev nD) : wf2 m c =
    concatenate S128x128 0
      [⟨S64x128, concatenate S64x128 1 [⟨S64x64, a1 m c⟩, ⟨S64x64, broadcastInDim S64x64 ![] bcast_S_S64x64 (constant (F := Ideal) S_ .f32 0x00000000#32)⟩] concatenates_S64x64_S64x64_S64x128_d1⟩,
       ⟨S64x128, concatenate S64x128 1 [⟨S64x64, broadcastInDim S64x64 ![] bcast_S_S64x64 (constant (F := Ideal) S_ .f32 0x00000000#32)⟩, ⟨S64x64, a1 m c⟩] concatenates_S64x64_S64x64_S64x128_d1⟩]
      concatenates_S64x128_S64x128_S128x128_d0 := by
  show V0 m c (Proc.devRef .tc main_v41) = _
  rw [V0_split]
  have h := pre_arg1 m c
  generalize Pre m c = P at h ⊢
  simp only [hostOps0_6]
  after_results
  rw [h]

/-- The backward weights: two rows of blocks, `[Wb, 0]` above `[0, Wb]`. -/
theorem wb2_V (c : Dev nD) : wb2 m c =
    concatenate S128x128 0
      [⟨S64x128, concatenate S64x128 1 [⟨S64x64, a3 m c⟩, ⟨S64x64, broadcastInDim S64x64 ![] bcast_S_S64x64 (constant (F := Ideal) S_ .f32 0x00000000#32)⟩] concatenates_S64x64_S64x64_S64x128_d1⟩,
       ⟨S64x128, concatenate S64x128 1 [⟨S64x64, broadcastInDim S64x64 ![] bcast_S_S64x64 (constant (F := Ideal) S_ .f32 0x00000000#32)⟩, ⟨S64x64, a3 m c⟩] concatenates_S64x64_S64x64_S64x128_d1⟩]
      concatenates_S64x128_S64x128_S128x128_d0 := by
  show V0 m c (Proc.devRef .tc main_v45) = _
  rw [V0_split]
  have h := pre_arg3 m c
  generalize Pre m c = P at h ⊢
  simp only [hostOps0_6]
  after_results
  rw [h]

/-- The forward bias end to end with itself. -/
theorem bf2_V (c : Dev nD) : bf2 m c = concatenate S128 0 [⟨S64, a2 m c⟩, ⟨S64, a2 m c⟩] concatenates_S64_S64_S128_d0 := by
  show V0 m c (Proc.devRef .tc main_v46) = _
  rw [V0_split]
  have h := pre_arg2 m c
  generalize Pre m c = P at h ⊢
  simp only [hostOps0_6]
  after_results
  rw [h]

/-- The backward bias end to end with itself. -/
theorem bb2_V (c : Dev nD) : bb2 m c = concatenate S128 0 [⟨S64, a4 m c⟩, ⟨S64, a4 m c⟩] concatenates_S64_S64_S128_d0 := by
  show V0 m c (Proc.devRef .tc main_v47) = _
  rw [V0_split]
  have h := pre_arg4 m c
  generalize Pre m c = P at h ⊢
  simp only [hostOps0_6]
  after_results
  rw [h]

/-- The gate's row is the gate's column transposed. -/
theorem wgT_V (c : Dev nD) : wgT m c = transpose S1x64 [1, 0] (a5 m c) transposes_S64x1_S1x64_1_0 := by
  show V0 m c (Proc.devRef .tc main_v48) = _
  rw [V0_split]
  have h := pre_arg5 m c
  generalize Pre m c = P at h ⊢
  simp only [hostOps0_6]
  after_results
  rw [h]

/-! ## The six facts -/

/-- Packed row `r` of the embeddings holds edges `2 r` and `2 r + 1` side by side (a reshape of contiguous rows). -/
theorem row_ee (c : Dev nD) (r : Fin 500000) :
    (fun k => eeP m c (ix2 r k)) = pack (fun k => a0 m c (ix2 (edge r 0) k)) (fun k => a0 m c (ix2 (edge r 1) k)) := by
  funext k
  exact (congrFun (eeP_V m c) (ix2 r k)).trans (reshape_row (a0 m c) _ r k)

/-- The forward weights as the region finds them: `Wf` in both diagonal blocks, zero elsewhere. -/
theorem wf2_eq (c : Dev nD) : (fun k n => wf2 m c (ix2 k n)) = blockDiag (fun k n => a1 m c (ix2 k n)) := by
  funext k n
  exact (congrFun (wf2_V m c) (ix2 k n)).trans (blockDiag_apply (a1 m c) _ zero64_apply _ _ k n)

/-- The forward bias, doubled. -/
theorem bf2_eq (c : Dev nD) : (fun n => bf2 m c (ix1 n)) = pack (fun n => a2 m c (ix1 n)) (fun n => a2 m c (ix1 n)) := by
  funext n
  exact (congrFun (bf2_V m c) (ix1 n)).trans (pack_apply (a2 m c) _ n)

/-- The backward weights, block-diagonal. -/
theorem wb2_eq (c : Dev nD) : (fun k n => wb2 m c (ix2 k n)) = blockDiag (fun k n => a3 m c (ix2 k n)) := by
  funext k n
  exact (congrFun (wb2_V m c) (ix2 k n)).trans (blockDiag_apply (a3 m c) _ zero64_apply _ _ k n)

/-- The backward bias, doubled. -/
theorem bb2_eq (c : Dev nD) : (fun n => bb2 m c (ix1 n)) = pack (fun n => a4 m c (ix1 n)) (fun n => a4 m c (ix1 n)) := by
  funext n
  exact (congrFun (bb2_V m c) (ix1 n)).trans (pack_apply (a4 m c) _ n)

/-- The gate's weights as a row: the transpose of the 64 x 1 column. -/
theorem wgT_eq (c : Dev nD) : (fun k => wgT m c (ix2 (0 : Fin 1) k)) = fun k => a5 m c (ix2 k (0 : Fin 1)) := by
  funext k
  exact (congrFun (wgT_V m c) (ix2 (0 : Fin 1) k)).trans (transpose_ix2_apply (a5 m c) _ (0 : Fin 1) k)

/-- The gate's bias is the argument, untouched before the region. -/
theorem bgA_eq (c : Dev nD) : bgA m c = a6 m c := V_main_arg6 m c

end Cert.KernelIdeal.HostW

end
-- ==== Proof.Range.lean ====
/- The evident domain of the endpoint ids: every entry of the index array names a node. -/
import Idealize.ShloMosaic.PureOps

namespace Cert.EdgeGate

open Idealize.ShloMosaic

/-- Every endpoint id, read as a signed word, lies in `[0, 100000)`. -/
def InRange (x : IVec (⟨2, ![1000000, 2]⟩ : Shape) 32) : Prop := ∀ i, 0 ≤ (x i).toInt ∧ (x i).toInt < 100000

end Cert.EdgeGate
-- ==== Proof.KHostG.lean ====
import proofs.«400100_j65824668779103_2_alg».proof.Proof.KArrays
import proofs.«400100_j65824668779103_2_alg».proof.Proof.RefRead
import proofs.«400100_j65824668779103_2_alg».proof.Proof.Spec
import proofs.«400100_j65824668779103_2_alg».proof.Proof.Range
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

noncomputable section

/-!
What the host lines before the region leave in the packed endpoint sums and the packed reciprocals, for endpoint ids
that all name a node.

Each endpoint sum is a take of a row of the node table (per node, the sum of its incident edges' embeddings), each
reciprocal a take of an entry of the table `1 / (degree - 1)` (zero where the degree is at most one). A take gathers
at the id (a negative id moved up by the table's length) and keeps the gathered value where the id is in bounds, a fill
value elsewhere. With every id in `[0, 100000)` the bounds mask is one everywhere, so a take is its gather; the node
table, the degrees and the index columns are built by the same operations as the reference's, so the gathers are the
reference's own; and a gather of a pointwise function of a table is that function of the gather. The packed arrays are
reshapes: row `r` of 128 lanes holds edges `2 r` and `2 r + 1`, row `r` of 4 holds their four reciprocals.
-/

namespace Cert.KernelIdeal.HostG

open Cert.KernelIdeal Cert.KernelIdeal.Gen Cert.KernelIdeal.Arr Idealize.ShloMosaic Idealize.ShloMosaic.TcCoe Idealize.SL.Sem
open Idealize.ShloMosaic.ValueIdx Cert.EdgeGate

/-! ## The host lines before the region, as stages

Each definition below is one stretch of the program's lines before its region, as a function of the arrays it reads,
for any float family. -/

section Stages

variable {F : FTy → Type} [FloatOps F]

/-- First endpoint ids: column 0 of the id array, as a vector. -/
def kU (x7 : IVec S1000000x2 32) : IVec S1000000 32 :=
  shapeCast S1000000 (extractStridedSlice S1000000x1 ![0, 0] x7 slices_S1000000x2_S1000000x1_0_0) shapeCasts_S1000000x1_S1000000

/-- Second endpoint ids: column 1. -/
def kV (x7 : IVec S1000000x2 32) : IVec S1000000 32 :=
  shapeCast S1000000 (extractStridedSlice S1000000x1 ![0, 1] x7 slices_S1000000x2_S1000000x1_0_1) shapeCasts_S1000000x1_S1000000

/-- The node table: per node the sum of the embeddings of its incident edges (two scatter-adds, one per endpoint). -/
def kTable (x0 : FVec F S1000000x64 .f32) (x7 : IVec S1000000x2 32) : FVec F S100000x64 .f32 :=
  addf
    (Host.scatterAdd scatter_S100000x64_S1000000x1_S1000000x64_1_0_0_1
      (broadcastInDim S100000x64 ![] bcast_S_S100000x64 (constant S_ .f32 0x00000000#32))
      (broadcastInDim S1000000x1 ![0] bcast_S1000000_S1000000x1_0 (kU x7)) x0)
    (Host.scatterAdd scatter_S100000x64_S1000000x1_S1000000x64_1_0_0_1
      (broadcastInDim S100000x64 ![] bcast_S_S100000x64 (constant S_ .f32 0x00000000#32))
      (broadcastInDim S1000000x1 ![0] bcast_S1000000_S1000000x1_0 (kV x7)) x0)

/-- The degrees: per node the number of incident edge ends. -/
def kDeg (x7 : IVec S1000000x2 32) : FVec F S100000 .f32 :=
  addf
    (Host.scatterAdd scatter_S100000_S1000000x1_S1000000_n_0_0_1
      (broadcastInDim S100000 ![] bcast_S_S100000 (constant S_ .f32 0x00000000#32))
      (broadcastInDim S1000000x1 ![0] bcast_S1000000_S1000000x1_0 (kU x7))
      (broadcastInDim S1000000 ![] bcast_S_S1000000 (constant S_ .f32 0x3F800000#32)))
    (Host.scatterAdd scatter_S100000_S1000000x1_S1000000_n_0_0_1
      (broadcastInDim S100000 ![] bcast_S_S100000 (constant S_ .f32 0x00000000#32))
      (broadcastInDim S1000000x1 ![0] bcast_S1000000_S1000000x1_0 (kV x7))
      (broadcastInDim S1000000 ![] bcast_S_S1000000 (constant S_ .f32 0x3F800000#32)))

/-- The per-node reciprocal of (degree - 1), zero where the degree is at most one. -/
def kInv (x7 : IVec S1000000x2 32) : FVec F S100000 .f32 :=
  select
    (cmpf .ogt (kDeg (F := F) x7) (broadcastInDim S100000 ![] bcast_S_S100000 (constant S_ .f32 0x3F800000#32)))
    (Host.divf (broadcastInDim S100000 ![] bcast_S_S100000 (constant S_ .f32 0x3F800000#32))
      (subf (kDeg (F := F) x7) (broadcastInDim S100000 ![] bcast_S_S100000 (constant S_ .f32 0x3F800000#32))))
    (broadcastInDim S100000 ![] bcast_S_S100000 (constant S_ .f32 0x00000000#32))

/-- A take's index column: a negative id is moved up by the table's length. -/
def kWrap (n : IVec S1000000 32) : IVec S1000000x1 32 :=
  broadcastInDim S1000000x1 ![0] bcast_S1000000_S1000000x1_0
    (select (cmpi .slt n (broadcastInDim S1000000 ![] bcast_S_S1000000 (constantI S_ 32 0#32)))
      (addi n (broadcastInDim S1000000 ![] bcast_S_S1000000 (constantI S_ 32 100000#32))) n)

/-- A take's bounds mask: the index lies in the table. -/
def kInb (w : IVec S1000000x1 32) : IVec S1000000 1 :=
  Host.reduce IntOp.andi
    (andi (cmpi .sge w (broadcastInDim S1000000x1 ![] bcast_S_S1000000x1 (constantI S_ 32 0#32)))
      (cmpi .sle w (broadcastInDim S1000000x1 ![0, 1] bcast_S1x1_S1000000x1_0_1
        (broadcastInDim S1x1 ![1] bcast_S1_S1x1_1 (constantI S1 32 99999#32)))))
    (constantI S_ 1 1#1) reducesTo_S1000000x1_S1000000_d1 h_S_

/-- A take of rows of a 64-column table: the gathered row where the index is in bounds, a fill value elsewhere. -/
def kTakeRows (T : FVec F S100000x64 .f32) (n : IVec S1000000 32) : FVec F S1000000x64 .f32 :=
  select (broadcastInDim S1000000x64 ![0] bcast_S1000000_S1000000x64_0 (kInb (kWrap n)))
    (Host.gather gather_S100000x64_S1000000x1_S1000000x64_1_0_n_n_0_1_164 T (kWrap n))
    (broadcastInDim S1000000x64 ![] bcast_S_S1000000x64 (constant S_ .f32 0x7FC00000#32))

/-- A take of entries of a vector table, likewise. -/
def kTakeVec (T : FVec F S100000 .f32) (n : IVec S1000000 32) : FVec F S1000000 .f32 :=
  select (kInb (kWrap n))
    (Host.gather gather_S100000_S1000000x1_S1000000_n_0_n_n_0_1_1 T (kWrap n))
    (broadcastInDim S1000000 ![] bcast_S_S1000000 (constant S_ .f32 0x7FC00000#32))

end Stages

/-- Contents moved to a buffer's own type and back are the contents. -/
theorem ofBuf_toBuf {Val : EltTy → Type} {T : BufTy} (x : StableHlo.TRef sig T) (v : T.Contents Val) :
    x.ofBuf (x.toBuf v) = v := by
  obtain ⟨r, rfl, _, _⟩ := x
  rfl

/-! ### A literal buffer's contents at its own type: the typed references' transports are identities -/

section Casts
variable {F : FTy → Type} [FloatOps F]

theorem ofBuf_v1 (h1 : (main_v1 : Ref sig .tc).ty = ⟨S1000000, .i32⟩) (h2 : (main_v1 : Ref sig .tc).space ≠ .host)
    (h3 : (main_v1 : Ref sig .tc).isScoped = false) (v : (main_v1 : Ref sig .tc).ty.Contents (Elt F)) :
    (StableHlo.TRef.of main_v1 h1 h2 h3).ofBuf v = v := rfl
theorem ofBuf_v3 (h1 : (main_v3 : Ref sig .tc).ty = ⟨S1000000, .i32⟩) (h2 : (main_v3 : Ref sig .tc).space ≠ .host)
    (h3 : (main_v3 : Ref sig .tc).isScoped = false) (v : (main_v3 : Ref sig .tc).ty.Contents (Elt F)) :
    (StableHlo.TRef.of main_v3 h1 h2 h3).ofBuf v = v := rfl
theorem ofBuf_v10 (h1 : (main_v10 : Ref sig .tc).ty = ⟨S100000x64, .f32⟩) (h2 : (main_v10 : Ref sig .tc).space ≠ .host)
    (h3 : (main_v10 : Ref sig .tc).isScoped = false) (v : (main_v10 : Ref sig .tc).ty.Contents (Elt F)) :
    (StableHlo.TRef.of main_v10 h1 h2 h3).ofBuf v = v := rfl
theorem ofBuf_v26 (h1 : (main_v26 : Ref sig .tc).ty = ⟨S100000, .f32⟩) (h2 : (main_v26 : Ref sig .tc).space ≠ .host)
    (h3 : (main_v26 : Ref sig .tc).isScoped = false) (v : (main_v26 : Ref sig .tc).ty.Contents (Elt F)) :
    (StableHlo.TRef.of main_v26 h1 h2 h3).ofBuf v = v := rfl
theorem toBuf_v27 (h1 : (main_v27 : Ref sig .tc).ty = ⟨S1000000x64, .f32⟩) (h2 : (main_v27 : Ref sig .tc).space ≠ .host)
    (h3 : (main_v27 : Ref sig .tc).isScoped = false) (v : (⟨S1000000x64, .f32⟩ : BufTy).Contents (Elt F)) :
    (StableHlo.TRef.of main_v27 h1 h2 h3).toBuf v = v := rfl
theorem toBuf_v28 (h1 : (main_v28 : Ref sig .tc).ty = ⟨S1000000x64, .f32⟩) (h2 : (main_v28 : Ref sig .tc).space ≠ .host)
    (h3 : (main_v28 : Ref sig .tc).isScoped = false) (v : (⟨S1000000x64, .f32⟩ : BufTy).Contents (Elt F)) :
    (StableHlo.TRef.of main_v28 h1 h2 h3).toBuf v = v := rfl
theorem toBuf_v29 (h1 : (main_v29 : Ref sig .tc).ty = ⟨S1000000, .f32⟩) (h2 : (main_v29 : Ref sig .tc).space ≠ .host)
    (h3 : (main_v29 : Ref sig .tc).isScoped = false) (v : (⟨S1000000, .f32⟩ : BufTy).Contents (Elt F)) :
    (StableHlo.TRef.of main_v29 h1 h2 h3).toBuf v = v := rfl
theorem toBuf_v30 (h1 : (main_v30 : Ref sig .tc).ty = ⟨S1000000, .f32⟩) (h2 : (main_v30 : Ref sig .tc).space ≠ .host)
    (h3 : (main_v30 : Ref sig .tc).isScoped = false) (v : (⟨S1000000, .f32⟩ : BufTy).Contents (Elt F)) :
    (StableHlo.TRef.of main_v30 h1 h2 h3).toBuf v = v := rfl

end Casts

/-! ## Words in range -/

section Words

/-- A non-negative id is not below zero. -/
theorem cmpi_slt_zero {a : BitVec 32} (h : 0 ≤ a.toInt) : IntOp.cmpi .slt a 0#32 = 0#1 := by
  have e : a.slt 0#32 = false := by
    simp only [BitVec.slt, BitVec.toInt_zero, decide_eq_false_iff_not, not_lt]; exact h
  show BitVec.ofBool (a.slt 0#32) = 0#1
  rw [e]; rfl

/-- A non-negative id is at least zero. -/
theorem cmpi_sge_zero {a : BitVec 32} (h : 0 ≤ a.toInt) : IntOp.cmpi .sge a 0#32 = 1#1 := by
  have e : (0#32 : BitVec 32).sle a = true := by
    simp only [BitVec.sle, BitVec.toInt_zero, decide_eq_true_eq]; exact h
  show BitVec.ofBool ((0#32 : BitVec 32).sle a) = 1#1
  rw [e]; rfl

/-- An id below the table's length is at most its last position. -/
theorem cmpi_sle_last {a : BitVec 32} (h : a.toInt < 100000) : IntOp.cmpi .sle a 99999#32 = 1#1 := by
  have e9 : (99999#32 : BitVec 32).toInt = 99999 := by decide
  have e : a.sle 99999#32 = true := by
    simp only [BitVec.sle, e9, decide_eq_true_eq]; omega
  show BitVec.ofBool (a.sle 99999#32) = 1#1
  rw [e]; rfl

/-- A conjunction of ones, folded from one, is one. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h0, _ => h0
  | a :: l, init, h0, h => by
    rw [List.foldl_cons]
    refine foldl_andi_ones f l _ ?_ (fun n hn => h n (List.mem_cons_of_mem _ hn))
    rw [h0, h a List.mem_cons_self]; rfl

end Words

/-! ## The stages at an index, for ids in range -/

section Reads

variable {F : FTy → Type} [FloatOps F]

/-- Entry `e` of the first id column. -/
theorem kU_apply (x7 : IVec S1000000x2 32) (e : Fin 1000000) : kU x7 (ix1 e) = x7 (ix2 e (0 : Fin 2)) := by
  unfold kU
  rw [shapeCast_apply _ shapeCasts_S1000000x1_S1000000 (ix1 e) (ix2 e (0 : Fin 1))
    (by rw [Shape.rowMajor_val_two, Shape.rowMajor_val_one]; show e.val * 1 + 0 = e.val; omega)]
  exact extractStridedSlice_apply ![0, 0] x7 slices_S1000000x2_S1000000x1_0_0 (ix2 e (0 : Fin 1)) (ix2 e (0 : Fin 2))
    (fun a => match a with
      | ⟨0, _⟩ => by show e.val = 0 + e.val; omega
      | ⟨1, _⟩ => by show (0 : Nat) = 0 + 0; rfl)

/-- Entry `e` of the second id column. -/
theorem kV_apply (x7 : IVec S1000000x2 32) (e : Fin 1000000) : kV x7 (ix1 e) = x7 (ix2 e (1 : Fin 2)) := by
  unfold kV
  rw [shapeCast_apply _ shapeCasts_S1000000x1_S1000000 (ix1 e) (ix2 e (0 : Fin 1))
    (by rw [Shape.rowMajor_val_two, Shape.rowMajor_val_one]; show e.val * 1 + 0 = e.val; omega)]
  exact extractStridedSlice_apply ![0, 1] x7 slices_S1000000x2_S1000000x1_0_1 (ix2 e (0 : Fin 1)) (ix2 e (1 : Fin 2))
    (fun a => match a with
      | ⟨0, _⟩ => by show e.val = 0 + e.val; omega
      | ⟨1, _⟩ => by show (1 : Nat) = 1 + 0; rfl)

/-- A column of ids: every entry names a node. -/
def IdsOk (n : IVec S1000000 32) : Prop := ∀ i, 0 ≤ (n i).toInt ∧ (n i).toInt < 100000

theorem kU_ok {x7 : IVec S1000000x2 32} (hr : InRange x7) : IdsOk (kU x7) := fun i => by
  obtain ⟨e, rfl⟩ : ∃ e : Fin 1000000, i = ix1 e := ⟨i 0, eq_ix1 i⟩
  rw [kU_apply]; exact hr _

theorem kV_ok {x7 : IVec S1000000x2 32} (hr : InRange x7) : IdsOk (kV x7) := fun i => by
  obtain ⟨e, rfl⟩ : ∃ e : Fin 1000000, i = ix1 e := ⟨i 0, eq_ix1 i⟩
  rw [kV_apply]; exact hr _

/-- For ids in range the take's index column holds the ids themselves. -/
theorem kWrap_apply {n : IVec S1000000 32} (hn : IdsOk n) (e : Fin 1000000) (z : Fin 1) : kWrap n (ix2 e z) = n (ix1 e) := by
  unfold kWrap
  rw [broadcastInDim_apply _ bcast_S1000000_S1000000x1_0 _ (ix2 e z) (ix1 e) (fun a => match a with
    | ⟨0, _⟩ => by show e.val = if (1000000 : Nat) = 1 then 0 else e.val; rw [if_neg (by decide)])]
  show Scalar.select (IntOp.cmpi .slt (n (ix1 e)) 0#32) _ (n (ix1 e)) = n (ix1 e)
  rw [cmpi_slt_zero (hn _).1, select_zero]

/-- So the take's bounds mask is one everywhere. -/
theorem kInb_one {n : IVec S1000000 32} (hn : IdsOk n) (j : S1000000.Idx) : kInb (kWrap n) j = 1#1 := by
  unfold kInb
  rw [Host.reduce_eq_foldl]
  refine foldl_andi_ones _ _ _ rfl (fun i _ => ?_)
  obtain ⟨e, z, rfl⟩ : ∃ (e : Fin 1000000) (z : Fin 1), i = ix2 e z := ⟨i 0, i 1, eq_ix2 i⟩
  show IntOp.andi (IntOp.cmpi .sge (kWrap n (ix2 e z)) 0#32) (IntOp.cmpi .sle (kWrap n (ix2 e z)) 99999#32) = 1#1
  rw [kWrap_apply hn, cmpi_sge_zero (hn _).1, cmpi_sle_last (hn _).2]; rfl

/-- For ids in range a take of rows is the gather: the fill value is never selected. -/
theorem kTakeRows_eq (T : FVec F S100000x64 .f32) {n : IVec S1000000 32} (hn : IdsOk n) :
    kTakeRows T n = Host.gather gather_S100000x64_S1000000x1_S1000000x64_1_0_n_n_0_1_164 T (kWrap n) := by
  funext j
  unfold kTakeRows
  rw [select_apply]
  have e : broadcastInDim S1000000x64 ![0] bcast_S1000000_S1000000x64_0 (kInb (kWrap n)) j = 1#1 := kInb_one hn _
  rw [e, select_one]

/-- The same for a take of entries of a vector table. -/
theorem kTakeVec_eq (T : FVec F S100000 .f32) {n : IVec S1000000 32} (hn : IdsOk n) :
    kTakeVec T n = Host.gather gather_S100000_S1000000x1_S1000000_n_0_n_n_0_1_1 T (kWrap n) := by
  funext j
  unfold kTakeVec
  rw [select_apply, kInb_one hn, select_one]

end Reads

/-! ## The reciprocal table -/

section Recip

variable {F : FTy → Type} [FloatOps F]

/-- One entry of the reciprocal table as a function of the node's degree, in the program's operations. -/
def kRecip (d : F .f32) : F .f32 :=
  Scalar.select (FloatOps.cmpf .ogt d (FloatOps.ofBits .f32 0x3F800000#32))
    (FloatOps.hostDivf (FloatOps.ofBits .f32 0x3F800000#32) (FloatOps.subf d (FloatOps.ofBits .f32 0x3F800000#32)))
    (FloatOps.ofBits .f32 0x00000000#32)

theorem kInv_apply (x7 : IVec S1000000x2 32) (i : S100000.Idx) : kInv (F := F) x7 i = kRecip (kDeg (F := F) x7 i) := rfl

/-- A gather of the reciprocal table is the reciprocal of the gathered degree: the table is a pointwise function of the degrees. -/
theorem gather_kInv (x7 : IVec S1000000x2 32) (idx : IVec S1000000x1 32) (j : S1000000.Idx) :
    Host.gather gather_S100000_S1000000x1_S1000000_n_0_n_n_0_1_1 (kInv (F := F) x7) idx j
      = kRecip (Host.gather gather_S100000_S1000000x1_S1000000_n_0_n_n_0_1_1 (kDeg (F := F) x7) idx j) := by
  unfold Host.gather; exact kInv_apply _ _

open Cert.ReferenceIdeal.ReadP in
/-- The gathered rows and degrees are the reference's own gathers. -/
theorem rowsU_eq (x0 : FVec F S1000000x64 .f32) (x7 : IVec S1000000x2 32) :
    Host.gather gather_S100000x64_S1000000x1_S1000000x64_1_0_n_n_0_1_164 (kTable x0 x7) (kWrap (kU x7)) = val_main_v32 (F := F) x0 x7 := rfl

open Cert.ReferenceIdeal.ReadP in
theorem rowsV_eq (x0 : FVec F S1000000x64 .f32) (x7 : IVec S1000000x2 32) :
    Host.gather gather_S100000x64_S1000000x1_S1000000x64_1_0_n_n_0_1_164 (kTable x0 x7) (kWrap (kV x7)) = val_main_v59 (F := F) x0 x7 := rfl

open Cert.ReferenceIdeal.ReadP in
theorem degU_eq (x7 : IVec S1000000x2 32) :
    Host.gather gather_S100000_S1000000x1_S1000000_n_0_n_n_0_1_1 (kDeg (F := F) x7) (kWrap (kU x7)) = val_main_v25 (F := F) x7 := rfl

open Cert.ReferenceIdeal.ReadP in
theorem degV_eq (x7 : IVec S1000000x2 32) :
    Host.gather gather_S100000_S1000000x1_S1000000_n_0_n_n_0_1_1 (kDeg (F := F) x7) (kWrap (kV x7)) = val_main_v52 (F := F) x7 := rfl

end Recip

/-- On the extended reals the table's entry is `invDeg` of the degree. -/
theorem kRecip_ideal (d : EReal) : kRecip (F := Ideal) d = invDeg d := by
  have one : Ideal.ofBits .f32 0x3F800000#32 = 1 := by
    simp [Ideal.ofBits, Ideal.ieee, -EReal.coe_mul]; norm_num
  unfold kRecip invDeg
  simp only [Ideal.ofBits_def, Ideal.cmpf_def, Ideal.hostDivf_def, Ideal.subf_def, one, Ideal.ofBits_zero_f32]
  by_cases h : 1 < d
  · have hc : Ideal.cmp .ogt d 1 = 1#1 := by simp [Ideal.cmp, h]
    rw [hc, select_one, if_pos h]
  · have hc : Ideal.cmp .ogt d 1 = 0#1 := by simp [Ideal.cmp, h]
    rw [hc, select_zero, if_neg h]

/-! ## The packed layouts at coordinates -/

section Layout

/-- Row `r` of the 500000 x 128 view of a 1000000 x 64 array is its rows `2 r` and `2 r + 1`, end to end. -/
theorem packed_row (X : S1000000x64.Idx → EReal) (h : S1000000x64.ShapeCasts S500000x128) (r : Fin 500000) :
    (fun k => shapeCast S500000x128 X h (ix2 r k)) = pack (fun k => X (ix2 (edge r 0) k)) (fun k => X (ix2 (edge r 1) k)) := by
  funext k
  unfold pack
  by_cases hk : k.val < 64
  · rw [dif_pos hk]
    refine shapeCast_apply X h (ix2 r k) (ix2 (edge r 0) ⟨k.val, hk⟩) ?_
    rw [Shape.rowMajor_val_two, Shape.rowMajor_val_two]
    show (2 * r.val + 0) * 64 + k.val = r.val * 128 + k.val
    omega
  · rw [dif_neg hk]
    refine shapeCast_apply X h (ix2 r k) (ix2 (edge r 1) ⟨k.val - 64, by have := k.isLt; omega⟩) ?_
    rw [Shape.rowMajor_val_two, Shape.rowMajor_val_two]
    show (2 * r.val + 1) * 64 + (k.val - 64) = r.val * 128 + k.val
    omega

variable {α : Type}

/-- Two columns side by side: column 0 is the first. -/
theorem cols_left (X Y : S1000000x1.Idx → α) (h : Shape.Concatenates [S1000000x1, S1000000x1] S1000000x2 1) (e : Fin 1000000) :
    concatenate S1000000x2 1 [⟨S1000000x1, X⟩, ⟨S1000000x1, Y⟩] h (ix2 e (0 : Fin 2)) = X (ix2 e (0 : Fin 1)) :=
  concatenate_pair_apply_left 1 X Y h (ix2 e (0 : Fin 2)) rfl (ix2 e (0 : Fin 1)) fun b => match b with | ⟨0, _⟩ => rfl | ⟨1, _⟩ => rfl

/-- … and column 1 is the second. -/
theorem cols_right (X Y : S1000000x1.Idx → α) (h : Shape.Concatenates [S1000000x1, S1000000x1] S1000000x2 1) (e : Fin 1000000) :
    concatenate S1000000x2 1 [⟨S1000000x1, X⟩, ⟨S1000000x1, Y⟩] h (ix2 e (1 : Fin 2)) = Y (ix2 e (0 : Fin 1)) :=
  concatenate_pair_apply_right 1 X Y h (ix2 e (1 : Fin 2)) rfl rfl (ix2 e (0 : Fin 1))
    (fun b => match b with | ⟨0, _⟩ => fun _ => rfl | ⟨1, _⟩ => fun hb => absurd rfl hb)
    (by show 0 + 1 = 1; rfl)

/-- A vector as a column, read at a row. -/
theorem as_col (A : S1000000.Idx → α) (e : Fin 1000000) :
    broadcastInDim S1000000x1 ![0] bcast_S1000000_S1000000x1_0 A (ix2 e (0 : Fin 1)) = A (ix1 e) :=
  broadcastInDim_apply _ bcast_S1000000_S1000000x1_0 A (ix2 e (0 : Fin 1)) (ix1 e) (fun a => match a with
    | ⟨0, _⟩ => by show e.val = if (1000000 : Nat) = 1 then 0 else e.val; rw [if_neg (by decide)])

/-- Row `r` of the 500000 x 4 view of two vectors laid as the columns of a 1000000 x 2 array: the two entries at `2 r`,
    then the two at `2 r + 1`. -/
theorem quad_row (A B : S1000000.Idx → α) (hc : Shape.Concatenates [S1000000x1, S1000000x1] S1000000x2 1)
    (hs : S1000000x2.ShapeCasts S500000x4) (r : Fin 500000) :
    (fun a : Fin 4 => shapeCast S500000x4 (concatenate S1000000x2 1
        [⟨S1000000x1, broadcastInDim S1000000x1 ![0] bcast_S1000000_S1000000x1_0 A⟩,
         ⟨S1000000x1, broadcastInDim S1000000x1 ![0] bcast_S1000000_S1000000x1_0 B⟩] hc) hs (ix2 r a))
      = ![A (ix1 (edge r 0)), B (ix1 (edge r 0)), A (ix1 (edge r 1)), B (ix1 (edge r 1))] := by
  funext a
  match a with
  | ⟨0, _⟩ =>
    show _ = A (ix1 (edge r 0))
    refine (shapeCast_apply _ hs (ix2 r (0 : Fin 4)) (ix2 (edge r 0) (0 : Fin 2)) ?_).trans ?_
    · rw [Shape.rowMajor_val_two, Shape.rowMajor_val_two]; show (2 * r.val + 0) * 2 + 0 = r.val * 4 + 0; omega
    · rw [cols_left, as_col]
  | ⟨1, _⟩ =>
    show _ = B (ix1 (edge r 0))
    refine (shapeCast_apply _ hs (ix2 r (1 : Fin 4)) (ix2 (edge r 0) (1 : Fin 2)) ?_).trans ?_
    · rw [Shape.rowMajor_val_two, Shape.rowMajor_val_two]; show (2 * r.val + 0) * 2 + 1 = r.val * 4 + 1; omega
    · rw [cols_right, as_col]
  | ⟨2, _⟩ =>
    show _ = A (ix1 (edge r 1))
    refine (shapeCast_apply _ hs (ix2 r (2 : Fin 4)) (ix2 (edge r 1) (0 : Fin 2)) ?_).trans ?_
    · rw [Shape.rowMajor_val_two, Shape.rowMajor_val_two]; show (2 * r.val + 1) * 2 + 0 = r.val * 4 + 2; omega
    · rw [cols_left, as_col]
  | ⟨3, _⟩ =>
    show _ = B (ix1 (edge r 1))
    refine (shapeCast_apply _ hs (ix2 r (3 : Fin 4)) (ix2 (edge r 1) (1 : Fin 2)) ?_).trans ?_
    · rw [Shape.rowMajor_val_two, Shape.rowMajor_val_two]; show (2 * r.val + 1) * 2 + 1 = r.val * 4 + 3; omega
    · rw [cols_right, as_col]

end Layout

/-! ## What each stretch of host lines leaves

The lines before the region come in seven stretches. `Qk` is the buffers' contents after the stretches up to `k`;
each stretch's result is read off that stretch alone, over whatever contents it started from. -/

section Stretches

variable {F : FTy → Type} [FloatOps F]
variable (M : Valuation τ sig (Elt F))

/-- After the first two stretches (the node table, the degrees and the reciprocal table). -/
def Q1 : Valuation τ sig (Elt F) := StableHlo.after hostOps0_1 (StableHlo.after hostOps0 M)
/-- After the take of table rows at the first endpoints. -/
def Q2 : Valuation τ sig (Elt F) := StableHlo.after hostOps0_2 (Q1 M)
/-- After the take of table rows at the second endpoints. -/
def Q3 : Valuation τ sig (Elt F) := StableHlo.after hostOps0_3 (Q2 M)
/-- After the take of reciprocals at the first endpoints. -/
def Q4 : Valuation τ sig (Elt F) := StableHlo.after hostOps0_4 (Q3 M)
/-- After the take of reciprocals at the second endpoints. -/
def Q5 : Valuation τ sig (Elt F) := StableHlo.after hostOps0_5 (Q4 M)

/-- All seven stretches are the last one run after the first six. -/
theorem split7 : StableHlo.after (List.flatten [hostOps0, hostOps0_1, hostOps0_2, hostOps0_3, hostOps0_4, hostOps0_5, hostOps0_6]) M
    = StableHlo.after hostOps0_6 (Q5 M) := by
  simp only [Q5, Q4, Q3, Q2, Q1, List.flatten_cons, List.flatten_nil, List.append_nil, StableHlo.after_append]

/-! ### The first two stretches -/

theorem Q1_v1 : Q1 M (Proc.devRef .tc main_v1) = kU (M (Proc.devRef .tc main_arg7)) := by
  unfold Q1; simp only [hostOps0_1, hostOps0]; after_results; rfl

theorem Q1_v3 : Q1 M (Proc.devRef .tc main_v3) = kV (M (Proc.devRef .tc main_arg7)) := by
  unfold Q1; simp only [hostOps0_1, hostOps0]; after_results; rfl

set_option maxHeartbeats 1000000 in
theorem Q1_v10 : Q1 M (Proc.devRef .tc main_v10) = kTable (M (Proc.devRef .tc main_arg0)) (M (Proc.devRef .tc main_arg7)) := by
  unfold Q1; simp only [hostOps0_1, hostOps0]; after_results; rfl

set_option maxHeartbeats 1000000 in
theorem Q1_v26 : Q1 M (Proc.devRef .tc main_v26) = kInv (M (Proc.devRef .tc main_arg7)) := by
  unfold Q1; simp only [hostOps0_1, hostOps0]; after_results
  simp only [StableHlo.TRef.ofBuf, StableHlo.TRef.toBuf, cast_eq]; rfl

/-! ### The four takes, each over the contents it starts from -/

set_option maxHeartbeats 1000000 in
theorem take_v27 (P : Valuation τ sig (Elt F)) :
    StableHlo.after hostOps0_2 P (Proc.devRef .tc main_v27) = kTakeRows (P (Proc.devRef .tc main_v10)) (P (Proc.devRef .tc main_v1)) := by
  simp only [hostOps0_2]; after_results_simp
  simp only [ofBuf_toBuf, ofBuf_v1, ofBuf_v10, toBuf_v27]
  unfold kTakeRows kInb kWrap
  rfl

set_option maxHeartbeats 1000000 in
theorem take_v28 (P : Valuation τ sig (Elt F)) :
    StableHlo.after hostOps0_3 P (Proc.devRef .tc main_v28) = kTakeRows (P (Proc.devRef .tc main_v10)) (P (Proc.devRef .tc main_v3)) := by
  simp only [hostOps0_3]; after_results_simp
  simp only [ofBuf_toBuf, ofBuf_v3, ofBuf_v10, toBuf_v28]
  unfold kTakeRows kInb kWrap
  rfl

set_option maxHeartbeats 1000000 in
theorem take_v29 (P : Valuation τ sig (Elt F)) :
    StableHlo.after hostOps0_4 P (Proc.devRef .tc main_v29) = kTakeVec (P (Proc.devRef .tc main_v26)) (P (Proc.devRef .tc main_v1)) := by
  simp only [hostOps0_4]; after_results_simp
  simp only [ofBuf_toBuf, ofBuf_v1, ofBuf_v26, toBuf_v29]
  unfold kTakeVec kInb kWrap
  rfl

set_option maxHeartbeats 1000000 in
theorem take_v30 (P : Valuation τ sig (Elt F)) :
    StableHlo.after hostOps0_5 P (Proc.devRef .tc main_v30) = kTakeVec (P (Proc.devRef .tc main_v26)) (P (Proc.devRef .tc main_v3)) := by
  simp only [hostOps0_5]; after_results_simp
  simp only [ofBuf_toBuf, ofBuf_v3, ofBuf_v26, toBuf_v30]
  unfold kTakeVec kInb kWrap
  rfl

/-! ### What each take leaves untouched -/

theorem Q2_v10 : Q2 M (Proc.devRef .tc main_v10) = Q1 M (Proc.devRef .tc main_v10) := by
  unfold Q2; generalize Q1 M = P; simp only [hostOps0_2]; after_results
theorem Q2_v26 : Q2 M (Proc.devRef .tc main_v26) = Q1 M (Proc.devRef .tc main_v26) := by
  unfold Q2; generalize Q1 M = P; simp only [hostOps0_2]; after_results
theorem Q2_v1 : Q2 M (Proc.devRef .tc main_v1) = Q1 M (Proc.devRef .tc main_v1) := by
  unfold Q2; generalize Q1 M = P; simp only [hostOps0_2]; after_results
theorem Q2_v3 : Q2 M (Proc.devRef .tc main_v3) = Q1 M (Proc.devRef .tc main_v3) := by
  unfold Q2; generalize Q1 M = P; simp only [hostOps0_2]; after_results

theorem Q3_v27 : Q3 M (Proc.devRef .tc main_v27) = Q2 M (Proc.devRef .tc main_v27) := by
  unfold Q3; generalize Q2 M = P; simp only [hostOps0_3]; after_results
theorem Q3_v26 : Q3 M (Proc.devRef .tc main_v26) = Q2 M (Proc.devRef .tc main_v26) := by
  unfold Q3; generalize Q2 M = P; simp only [hostOps0_3]; after_results
theorem Q3_v1 : Q3 M (Proc.devRef .tc main_v1) = Q2 M (Proc.devRef .tc main_v1) := by
  unfold Q3; generalize Q2 M = P; simp only [hostOps0_3]; after_results
theorem Q3_v3 : Q3 M (Proc.devRef .tc main_v3) = Q2 M (Proc.devRef .tc main_v3) := by
  unfold Q3; generalize Q2 M = P; simp only [hostOps0_3]; after_results

theorem Q4_v27 : Q4 M (Proc.devRef .tc main_v27) = Q3 M (Proc.devRef .tc main_v27) := by
  unfold Q4; generalize Q3 M = P; simp only [hostOps0_4]; after_results
theorem Q4_v28 : Q4 M (Proc.devRef .tc main_v28) = Q3 M (Proc.devRef .tc main_v28) := by
  unfold Q4; generalize Q3 M = P; simp only [hostOps0_4]; after_results
theorem Q4_v26 : Q4 M (Proc.devRef .tc main_v26) = Q3 M (Proc.devRef .tc main_v26) := by
  unfold Q4; generalize Q3 M = P; simp only [hostOps0_4]; after_results
theorem Q4_v3 : Q4 M (Proc.devRef .tc main_v3) = Q3 M (Proc.devRef .tc main_v3) := by
  unfold Q4; generalize Q3 M = P; simp only [hostOps0_4]; after_results

theorem Q5_v27 : Q5 M (Proc.devRef .tc main_v27) = Q4 M (Proc.devRef .tc main_v27) := by
  unfold Q5; generalize Q4 M = P; simp only [hostOps0_5]; after_results
theorem Q5_v28 : Q5 M (Proc.devRef .tc main_v28) = Q4 M (Proc.devRef .tc main_v28) := by
  unfold Q5; generalize Q4 M = P; simp only [hostOps0_5]; after_results
theorem Q5_v29 : Q5 M (Proc.devRef .tc main_v29) = Q4 M (Proc.devRef .tc main_v29) := by
  unfold Q5; generalize Q4 M = P; simp only [hostOps0_5]; after_results

end Stretches

/-! ## The last stretch, and the three operands as terms of the arguments -/

section Operands

variable {F : FTy → Type} [FloatOps F]
variable (M : Valuation τ sig (Elt F))

theorem last_v32 (P : Valuation τ sig (Elt F)) :
    StableHlo.after hostOps0_6 P (Proc.devRef .tc main_v32) = shapeCast S500000x128 (P (Proc.devRef .tc main_v27)) shapeCasts_S1000000x64_S500000x128 := by
  simp only [hostOps0_6]; after_results; rfl

theorem last_v33 (P : Valuation τ sig (Elt F)) :
    StableHlo.after hostOps0_6 P (Proc.devRef .tc main_v33) = shapeCast S500000x128 (P (Proc.devRef .tc main_v28)) shapeCasts_S1000000x64_S500000x128 := by
  simp only [hostOps0_6]; after_results; rfl

theorem last_v37 (P : Valuation τ sig (Elt F)) :
    StableHlo.after hostOps0_6 P (Proc.devRef .tc main_v37) = shapeCast S500000x4 (concatenate S1000000x2 1
      [⟨S1000000x1, broadcastInDim S1000000x1 ![0] bcast_S1000000_S1000000x1_0 (P (Proc.devRef .tc main_v29))⟩,
       ⟨S1000000x1, broadcastInDim S1000000x1 ![0] bcast_S1000000_S1000000x1_0 (P (Proc.devRef .tc main_v30))⟩]
      concatenates_S1000000x1_S1000000x1_S1000000x2_d1) shapeCasts_S1000000x2_S500000x4 := by
  simp only [hostOps0_6]; after_results; rfl

theorem Q2_rowsU : Q2 M (Proc.devRef .tc main_v27) = kTakeRows (kTable (M (Proc.devRef .tc main_arg0)) (M (Proc.devRef .tc main_arg7))) (kU (M (Proc.devRef .tc main_arg7))) := by
  unfold Q2; rw [take_v27, Q1_v10, Q1_v1]

theorem Q3_rowsV : Q3 M (Proc.devRef .tc main_v28) = kTakeRows (kTable (M (Proc.devRef .tc main_arg0)) (M (Proc.devRef .tc main_arg7))) (kV (M (Proc.devRef .tc main_arg7))) := by
  unfold Q3; rw [take_v28, Q2_v10, Q1_v10, Q2_v3, Q1_v3]

theorem Q4_invU : Q4 M (Proc.devRef .tc main_v29) = kTakeVec (kInv (M (Proc.devRef .tc main_arg7))) (kU (M (Proc.devRef .tc main_arg7))) := by
  unfold Q4; rw [take_v29, Q3_v26, Q2_v26, Q1_v26, Q3_v1, Q2_v1, Q1_v1]

theorem Q5_invV : Q5 M (Proc.devRef .tc main_v30) = kTakeVec (kInv (M (Proc.devRef .tc main_arg7))) (kV (M (Proc.devRef .tc main_arg7))) := by
  unfold Q5; rw [take_v30, Q4_v26, Q3_v26, Q2_v26, Q1_v26, Q4_v3, Q3_v3, Q2_v3, Q1_v3]

/-- The packed first-endpoint sums, as found by the region. -/
theorem all_v32 : StableHlo.after (List.flatten [hostOps0, hostOps0_1, hostOps0_2, hostOps0_3, hostOps0_4, hostOps0_5, hostOps0_6]) M (Proc.devRef .tc main_v32)
    = shapeCast S500000x128 (kTakeRows (kTable (M (Proc.devRef .tc main_arg0)) (M (Proc.devRef .tc main_arg7))) (kU (M (Proc.devRef .tc main_arg7)))) shapeCasts_S1000000x64_S500000x128 := by
  rw [split7, last_v32, Q5_v27, Q4_v27, Q3_v27, Q2_rowsU]

/-- The packed second-endpoint sums. -/
theorem all_v33 : StableHlo.after (List.flatten [hostOps0, hostOps0_1, hostOps0_2, hostOps0_3, hostOps0_4, hostOps0_5, hostOps0_6]) M (Proc.devRef .tc main_v33)
    = shapeCast S500000x128 (kTakeRows (kTable (M (Proc.devRef .tc main_arg0)) (M (Proc.devRef .tc main_arg7))) (kV (M (Proc.devRef .tc main_arg7)))) shapeCasts_S1000000x64_S500000x128 := by
  rw [split7, last_v33, Q5_v28, Q4_v28, Q3_rowsV]

/-- The packed reciprocals. -/
theorem all_v37 : StableHlo.after (List.flatten [hostOps0, hostOps0_1, hostOps0_2, hostOps0_3, hostOps0_4, hostOps0_5, hostOps0_6]) M (Proc.devRef .tc main_v37)
    = shapeCast S500000x4 (concatenate S1000000x2 1
      [⟨S1000000x1, broadcastInDim S1000000x1 ![0] bcast_S1000000_S1000000x1_0 (kTakeVec (kInv (M (Proc.devRef .tc main_arg7))) (kU (M (Proc.devRef .tc main_arg7))))⟩,
       ⟨S1000000x1, broadcastInDim S1000000x1 ![0] bcast_S1000000_S1000000x1_0 (kTakeVec (kInv (M (Proc.devRef .tc main_arg7))) (kV (M (Proc.devRef .tc main_arg7))))⟩]
      concatenates_S1000000x1_S1000000x1_S1000000x2_d1) shapeCasts_S1000000x2_S500000x4 := by
  rw [split7, last_v37, Q5_v29, Q4_invU, Q5_invV]

end Operands

/-! ## The three rows -/

variable (m : (ℓ : Loc nD τ sig) → Buf (Elt Ideal) ℓ)

theorem suP_eq (c : Dev nD) : suP m c
    = shapeCast S500000x128 (kTakeRows (kTable (a0 m c) (a7 m c)) (kU (a7 m c))) shapeCasts_S1000000x64_S500000x128 :=
  all_v32 (fun b => m (c, b))

theorem svP_eq (c : Dev nD) : svP m c
    = shapeCast S500000x128 (kTakeRows (kTable (a0 m c) (a7 m c)) (kV (a7 m c))) shapeCasts_S1000000x64_S500000x128 :=
  all_v33 (fun b => m (c, b))

theorem duvP_eq (c : Dev nD) : duvP m c
    = shapeCast S500000x4 (concatenate S1000000x2 1
      [⟨S1000000x1, broadcastInDim S1000000x1 ![0] bcast_S1000000_S1000000x1_0 (kTakeVec (kInv (F := Ideal) (a7 m c)) (kU (a7 m c)))⟩,
       ⟨S1000000x1, broadcastInDim S1000000x1 ![0] bcast_S1000000_S1000000x1_0 (kTakeVec (kInv (F := Ideal) (a7 m c)) (kV (a7 m c)))⟩]
      concatenates_S1000000x1_S1000000x1_S1000000x2_d1) shapeCasts_S1000000x2_S500000x4 :=
  all_v37 (fun b => m (c, b))

/-- With every endpoint id in range, packed row `r` of the first-endpoint sums holds the reference's own gather of the
    node table at edges `2 r` and `2 r + 1` (the take's bounds mask is all ones, so its fill value is never selected, and the
    two programs build the node table and the wrapped indices by the same operations). -/
theorem row_su (c : Dev nD) (hr : InRange (a7 m c)) (r : Fin 500000) :
    (fun k => suP m c (ix2 r k))
      = pack (fun k => Cert.ReferenceIdeal.ReadP.val_main_v32 (F := Ideal) (a0 m c) (a7 m c) (ix2 (edge r 0) k))
          (fun k => Cert.ReferenceIdeal.ReadP.val_main_v32 (F := Ideal) (a0 m c) (a7 m c) (ix2 (edge r 1) k)) := by
  rw [suP_eq, kTakeRows_eq _ (kU_ok hr), rowsU_eq]
  exact packed_row _ _ r

/-- The same for the second endpoint. -/
theorem row_sv (c : Dev nD) (hr : InRange (a7 m c)) (r : Fin 500000) :
    (fun k => svP m c (ix2 r k))
      = pack (fun k => Cert.ReferenceIdeal.ReadP.val_main_v59 (F := Ideal) (a0 m c) (a7 m c) (ix2 (edge r 0) k))
          (fun k => Cert.ReferenceIdeal.ReadP.val_main_v59 (F := Ideal) (a0 m c) (a7 m c) (ix2 (edge r 1) k)) := by
  rw [svP_eq, kTakeRows_eq _ (kV_ok hr), rowsV_eq]
  exact packed_row _ _ r

/-- With every endpoint id in range, packed row `r` of the reciprocals is `invDeg` of the reference's four gathered
    degrees: first and second endpoint of edge `2 r`, then of edge `2 r + 1`. -/
theorem row_q (c : Dev nD) (hr : InRange (a7 m c)) (r : Fin 500000) :
    (fun a => duvP m c (ix2 r a))
      = ![invDeg (Cert.ReferenceIdeal.ReadP.val_main_v25 (F := Ideal) (a7 m c) (ix1 (edge r 0))),
          invDeg (Cert.ReferenceIdeal.ReadP.val_main_v52 (F := Ideal) (a7 m c) (ix1 (edge r 0))),
          invDeg (Cert.ReferenceIdeal.ReadP.val_main_v25 (F := Ideal) (a7 m c) (ix1 (edge r 1))),
          invDeg (Cert.ReferenceIdeal.ReadP.val_main_v52 (F := Ideal) (a7 m c) (ix1 (edge r 1)))] := by
  rw [duvP_eq, kTakeVec_eq _ (kU_ok hr), kTakeVec_eq _ (kV_ok hr), quad_row]
  rw [gather_kInv, gather_kInv, gather_kInv, gather_kInv, degU_eq, degV_eq]
  simp only [kRecip_ideal]

end Cert.KernelIdeal.HostG

end
-- ==== Proof.Algebra.lean ====
import proofs.«400100_j65824668779103_2_alg».proof.Proof.Spec

noncomputable section

namespace Cert.EdgeGate

open Idealize.ShloMosaic

/-! ## The guarded mean -/

/-- A natural number read in the extended reals exceeds one exactly when it does as a natural number. -/
theorem one_lt_natCast_iff (c : ℕ) : (1 : EReal) < (c : EReal) ↔ 1 < c := by
  have h : ((1 : EReal) < (c : EReal)) ↔ (((1 : ℝ) : EReal) < ((c : ℝ) : EReal)) := Iff.rfl
  rw [h, EReal.coe_lt_coe_iff, Nat.one_lt_cast]

/-- A natural number less one, in the extended reals, is the coercion of the real difference. -/
theorem natCast_sub_one (c : ℕ) : (c : EReal) - 1 = (((c : ℝ) - 1 : ℝ) : EReal) := rfl

/-- At a degree that is a natural number the kernel's product with the reciprocal is the reference's guarded quotient. -/
theorem meanKer_eq_meanRef (s x : EReal) (c : ℕ) : meanKer s x (c : EReal) = meanRef s x (c : EReal) := by
  unfold meanKer meanRef invDeg
  by_cases hc : (1 : EReal) < (c : EReal)
  · rw [if_pos hc, if_pos hc]
    have hc' : 1 < c := (one_lt_natCast_iff c).mp hc
    have hge : (1 : ℝ) ≤ (c : ℝ) - 1 := by
      have h2 : (2 : ℝ) ≤ (c : ℝ) := by exact_mod_cast hc'
      linarith
    have hne : ((c : ℝ) - 1) ≠ 0 := by linarith
    have hmax : max ((c : EReal) - 1) 1 = (c : EReal) - 1 := by
      rw [natCast_sub_one]
      apply max_eq_left
      rw [← EReal.coe_one, EReal.coe_le_coe_iff]
      exact hge
    rw [hmax, natCast_sub_one, Ideal.div_coe hne, Ideal.div_coe hne, one_mul]
  · rw [if_neg hc, if_neg hc, mul_zero]

/-! ## Lanes of a packed row -/

theorem lane_val (h : Fin 2) (k : Fin 64) : (lane h k).val = 64 * h.val + k.val := rfl

theorem lane0_lt (k : Fin 64) : (lane 0 k).val < 64 := by
  have := k.isLt
  rw [lane_val]
  show 64 * 0 + k.val < 64
  omega

theorem lane1_not_lt (k : Fin 64) : ¬ (lane 1 k).val < 64 := by
  rw [lane_val]
  show ¬ 64 * 1 + k.val < 64
  omega

theorem lane0_mk (k : Fin 64) (h : (lane 0 k).val < 64) : (⟨(lane 0 k).val, h⟩ : Fin 64) = k := by
  apply Fin.ext
  show 64 * 0 + k.val = k.val
  omega

theorem lane1_mk (k : Fin 64) (h : (lane 1 k).val - 64 < 64) : (⟨(lane 1 k).val - 64, h⟩ : Fin 64) = k := by
  apply Fin.ext
  show 64 * 1 + k.val - 64 = k.val
  omega

/-- A sum over the 128 lanes is the sum over the first half plus the sum over the second half. -/
theorem sum_lanes (g : Fin 128 → EReal) :
    (∑ k : Fin 128, g k) = (∑ k : Fin 64, g (lane 0 k)) + ∑ k : Fin 64, g (lane 1 k) := by
  have h := Fin.sum_univ_add (M := EReal) (a := 64) (b := 64) g
  have h0 : ∀ k : Fin 64, (Fin.castAdd 64 k : Fin (64 + 64)) = lane 0 k := by
    intro k
    apply Fin.ext
    show k.val = 64 * 0 + k.val
    omega
  have h1 : ∀ k : Fin 64, (Fin.natAdd 64 k : Fin (64 + 64)) = lane 1 k := by
    intro k
    apply Fin.ext
    show 64 + k.val = 64 * 1 + k.val
    omega
  simp only [h0, h1] at h
  exact h

theorem pack_lane0 (a b : Fin 64 → EReal) (k : Fin 64) : pack a b (lane 0 k) = a k := by
  unfold pack
  rw [dif_pos (lane0_lt k), lane0_mk]

theorem pack_lane1 (a b : Fin 64 → EReal) (k : Fin 64) : pack a b (lane 1 k) = b k := by
  unfold pack
  rw [dif_neg (lane1_not_lt k), lane1_mk]

theorem blockDiag_00 (W : Fin 64 → Fin 64 → EReal) (k n : Fin 64) : blockDiag W (lane 0 k) (lane 0 n) = W k n := by
  unfold blockDiag
  rw [dif_pos (lane0_lt k), dif_pos (lane0_lt n), lane0_mk, lane0_mk]

theorem blockDiag_01 (W : Fin 64 → Fin 64 → EReal) (k n : Fin 64) : blockDiag W (lane 0 k) (lane 1 n) = 0 := by
  unfold blockDiag
  rw [dif_pos (lane0_lt k), dif_neg (lane1_not_lt n)]

theorem blockDiag_10 (W : Fin 64 → Fin 64 → EReal) (k n : Fin 64) : blockDiag W (lane 1 k) (lane 0 n) = 0 := by
  unfold blockDiag
  rw [dif_neg (lane1_not_lt k), dif_pos (lane0_lt n)]

theorem blockDiag_11 (W : Fin 64 → Fin 64 → EReal) (k n : Fin 64) : blockDiag W (lane 1 k) (lane 1 n) = W k n := by
  unfold blockDiag
  rw [dif_neg (lane1_not_lt k), dif_neg (lane1_not_lt n), lane1_mk, lane1_mk]

/-! ## One linear layer on a packed row -/

/-- The packed layer read in the first half: only the first edge's lanes contribute. -/
theorem lin_packed0 (x0 x1 s0 s1 : Fin 64 → EReal) (qa qb : EReal) (W : Fin 64 → Fin 64 → EReal) (bv : Fin 64 → EReal)
    (n : Fin 64) :
    (∑ k : Fin 128, (pack s0 s1 k - pack x0 x1 k) * (if k.val < 64 then qa else qb) * blockDiag W k (lane 0 n))
        + pack bv bv (lane 0 n)
      = lin (fun k => (s0 k - x0 k) * qa) W bv n := by
  rw [sum_lanes]
  simp only [pack_lane0, pack_lane1, blockDiag_00, blockDiag_10, if_pos (lane0_lt _), if_neg (lane1_not_lt _), mul_zero,
    Finset.sum_const_zero, add_zero]
  rfl

/-- The packed layer read in the second half: only the second edge's lanes contribute. -/
theorem lin_packed1 (x0 x1 s0 s1 : Fin 64 → EReal) (qa qb : EReal) (W : Fin 64 → Fin 64 → EReal) (bv : Fin 64 → EReal)
    (n : Fin 64) :
    (∑ k : Fin 128, (pack s0 s1 k - pack x0 x1 k) * (if k.val < 64 then qa else qb) * blockDiag W k (lane 1 n))
        + pack bv bv (lane 1 n)
      = lin (fun k => (s1 k - x1 k) * qb) W bv n := by
  rw [sum_lanes]
  simp only [pack_lane0, pack_lane1, blockDiag_01, blockDiag_11, if_pos (lane0_lt _), if_neg (lane1_not_lt _), mul_zero,
    Finset.sum_const_zero, zero_add]
  rfl

/-! ## The packed row -/

/-- A packed row through the kernel's body, read in its first half, is the first edge's output row. -/
theorem rowOut_packed0 (x0 x1 s0 s1 t0 t1 : Fin 64 → EReal) (q : Fin 4 → EReal) (Wf : Fin 64 → Fin 64 → EReal) (bf : Fin 64 → EReal)
    (Wb : Fin 64 → Fin 64 → EReal) (bb : Fin 64 → EReal) (wg : Fin 64 → EReal) (bg : EReal) (j : Fin 64) :
    rowOut (pack x0 x1) (pack s0 s1) (pack t0 t1) q (blockDiag Wf) (pack bf bf) (blockDiag Wb) (pack bb bb) wg bg (lane 0 j)
      = edgeOut (fun k => (s0 k - x0 k) * q 0) (fun k => (t0 k - x0 k) * q 1) Wf bf Wb bb wg bg j := by
  simp only [rowOut, lin_packed0, if_pos (lane0_lt j)]
  rfl

/-- The same in its second half: the second edge's output row. -/
theorem rowOut_packed1 (x0 x1 s0 s1 t0 t1 : Fin 64 → EReal) (q : Fin 4 → EReal) (Wf : Fin 64 → Fin 64 → EReal) (bf : Fin 64 → EReal)
    (Wb : Fin 64 → Fin 64 → EReal) (bb : Fin 64 → EReal) (wg : Fin 64 → EReal) (bg : EReal) (j : Fin 64) :
    rowOut (pack x0 x1) (pack s0 s1) (pack t0 t1) q (blockDiag Wf) (pack bf bf) (blockDiag Wb) (pack bb bb) wg bg (lane 1 j)
      = edgeOut (fun k => (s1 k - x1 k) * q 2) (fun k => (t1 k - x1 k) * q 3) Wf bf Wb bb wg bg j := by
  simp only [rowOut, lin_packed1, if_neg (lane1_not_lt j)]
  rfl

end Cert.EdgeGate

end
-- ==== Proof.Packed.lean ====
/- One packed row of the arrays, through the kernel's body, is the layer's result at the row's two edges: the
   statement of Algebra's two half-row laws over whole arrays read at a row. -/
import proofs.«400100_j65824668779103_2_alg».proof.Proof.Algebra

noncomputable section

namespace Cert.EdgeGate

open Idealize.ShloMosaic Idealize.ShloMosaic.ValueIdx

variable (ee : E64.Idx → EReal) (Wf : W64.Idx → EReal) (bf : B64.Idx → EReal) (Wb : W64.Idx → EReal) (bb : B64.Idx → EReal)
  (Wg : G64.Idx → EReal) (bg : B1.Idx → EReal) (su sv : E64.Idx → EReal) (du dv : E1.Idx → EReal)

/-- The layer's result with the product spelling of the mean, unfolded once. -/
theorem resultWith_meanKer (e : Fin 1000000) (j : Fin 64) :
    resultWith meanKer ee Wf bf Wb bb Wg bg su sv du dv e j
      = edgeOut (fun k => (su (ix2 e k) - ee (ix2 e k)) * invDeg (du (ix1 e)))
          (fun k => (sv (ix2 e k) - ee (ix2 e k)) * invDeg (dv (ix1 e)))
          (fun k n => Wf (ix2 k n)) (fun n => bf (ix1 n)) (fun k n => Wb (ix2 k n)) (fun n => bb (ix1 n))
          (fun k => Wg (ix2 k (0 : Fin 1))) (bg (ix1 (0 : Fin 1))) j := rfl

/-- Packed row `r`, first half: edge `2 r`. -/
theorem packed_row0 (r : Fin 500000) (j : Fin 64) :
    rowOut (pack (fun k => ee (ix2 (edge r 0) k)) (fun k => ee (ix2 (edge r 1) k)))
        (pack (fun k => su (ix2 (edge r 0) k)) (fun k => su (ix2 (edge r 1) k)))
        (pack (fun k => sv (ix2 (edge r 0) k)) (fun k => sv (ix2 (edge r 1) k)))
        ![invDeg (du (ix1 (edge r 0))), invDeg (dv (ix1 (edge r 0))), invDeg (du (ix1 (edge r 1))), invDeg (dv (ix1 (edge r 1)))]
        (blockDiag fun k n => Wf (ix2 k n)) (pack (fun n => bf (ix1 n)) (fun n => bf (ix1 n)))
        (blockDiag fun k n => Wb (ix2 k n)) (pack (fun n => bb (ix1 n)) (fun n => bb (ix1 n)))
        (fun k => Wg (ix2 k (0 : Fin 1))) (bg (ix1 (0 : Fin 1))) (lane 0 j)
      = resultWith meanKer ee Wf bf Wb bb Wg bg su sv du dv (edge r 0) j := by
  rw [resultWith_meanKer]
  exact rowOut_packed0 _ _ _ _ _ _ _ _ _ _ _ _ _ j

/-- Packed row `r`, second half: edge `2 r + 1`. -/
theorem packed_row1 (r : Fin 500000) (j : Fin 64) :
    rowOut (pack (fun k => ee (ix2 (edge r 0) k)) (fun k => ee (ix2 (edge r 1) k)))
        (pack (fun k => su (ix2 (edge r 0) k)) (fun k => su (ix2 (edge r 1) k)))
        (pack (fun k => sv (ix2 (edge r 0) k)) (fun k => sv (ix2 (edge r 1) k)))
        ![invDeg (du (ix1 (edge r 0))), invDeg (dv (ix1 (edge r 0))), invDeg (du (ix1 (edge r 1))), invDeg (dv (ix1 (edge r 1)))]
        (blockDiag fun k n => Wf (ix2 k n)) (pack (fun n => bf (ix1 n)) (fun n => bf (ix1 n)))
        (blockDiag fun k n => Wb (ix2 k n)) (pack (fun n => bb (ix1 n)) (fun n => bb (ix1 n)))
        (fun k => Wg (ix2 k (0 : Fin 1))) (bg (ix1 (0 : Fin 1))) (lane 1 j)
      = resultWith meanKer ee Wf bf Wb bb Wg bg su sv du dv (edge r 1) j := by
  rw [resultWith_meanKer]
  exact rowOut_packed1 _ _ _ _ _ _ _ _ _ _ _ _ _ j

/-- A half index is 0 or 1. -/
theorem half_cases (h : Fin 2) : h = 0 ∨ h = 1 := by
  rcases h with ⟨v, hv⟩
  rcases v with _ | _ | v
  · exact Or.inl rfl
  · exact Or.inr rfl
  · omega

end Cert.EdgeGate

end
-- ==== Proof.KValue.lean ====
/- The kernel's result at one edge and one column, over the reference's own gathers: the packed row through the
   kernel's body (`tail_value`), its operands read back to the arguments (the packings and the block-diagonal weights),
   and the two halves of a packed row split apart (`packed_row0/1`). -/
import proofs.«400100_j65824668779103_2_alg».proof.Proof.KCover
import proofs.«400100_j65824668779103_2_alg».proof.Proof.KHostW
import proofs.«400100_j65824668779103_2_alg».proof.Proof.KHostG
import proofs.«400100_j65824668779103_2_alg».proof.Proof.Packed

noncomputable section

namespace Cert.KernelIdeal.Value

open Cert.KernelIdeal Cert.KernelIdeal.Gen Cert.KernelIdeal.Arr Idealize.ShloMosaic Idealize.ShloMosaic.TcCoe Idealize.SL.Sem
open Idealize.ShloMosaic.ValueIdx Cert.EdgeGate

variable (m : (ℓ : Loc nD τ sig) → Buf (Elt Ideal) ℓ)

set_option maxHeartbeats 400000 in
/-- With every endpoint id in range the kernel's result at edge `e`, column `j`, is the layer's result with the mean
    spelt as a product with the node's reciprocal, over the reference's gathers of the node table and of the degrees. -/
theorem kernel_value (c : Dev nD) (hr : InRange (a7 m c)) (e : Fin 1000000) (j : Fin 64) :
    KV m c (ix2 e j)
      = resultWith meanKer (a0 m c) (a1 m c) (a2 m c) (a3 m c) (a4 m c) (a5 m c) (a6 m c)
          (Cert.ReferenceIdeal.ReadP.val_main_v32 (F := Ideal) (a0 m c) (a7 m c))
          (Cert.ReferenceIdeal.ReadP.val_main_v59 (F := Ideal) (a0 m c) (a7 m c))
          (Cert.ReferenceIdeal.ReadP.val_main_v25 (F := Ideal) (a7 m c))
          (Cert.ReferenceIdeal.ReadP.val_main_v52 (F := Ideal) (a7 m c)) e j := by
  obtain ⟨r, h, rfl⟩ := edge_surj e
  rw [Cover.tail_value m c r h j, HostW.row_ee m c r, HostG.row_su m c hr r, HostG.row_sv m c hr r, HostG.row_q m c hr r,
    HostW.wf2_eq m c, HostW.bf2_eq m c, HostW.wb2_eq m c, HostW.bb2_eq m c, HostW.wgT_eq m c, HostW.bgA_eq m c]
  rcases half_cases h with rfl | rfl
  · exact packed_row0 _ _ _ _ _ _ _ _ _ _ _ r j
  · exact packed_row1 _ _ _ _ _ _ _ _ _ _ _ r j

/-- The kernel's program runs and leaves `KV` in its result array, its arguments unchanged: the frame run read at the
    result array (through the one line after the region) and at the arguments. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v50) = KV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).2 main_v50 (Pipeline.mem_restRefs_of main_v50 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 9).trans ((((dats m) 0 c).arrAt_in 9 rfl _).trans ((A_eq m c 9).trans (V_main_arg6 m c))),
      (((h c).2 main_arg7 (Pipeline.mem_restRefs_of main_arg7 (by decide) (by decide))).trans (W_main_arg7 m (dats m) c))⟩)
    (run_main m ρ)

end Cert.KernelIdeal.Value

end
-- ==== Proof.RefBridge.lean ====
import proofs.«400100_j65824668779103_2_alg».proof.Proof.RefRead
import proofs.«400100_j65824668779103_2_alg».proof.Proof.Spec
import Idealize.ShloMosaic.Lib.ValueIdx
import Idealize.ShloMosaic.Lib.Pipeline.Value
import Idealize.ShloMosaic.PureOps.Ideal.Laws

noncomputable section

namespace Cert.EdgeGate.Ref

open Cert.ReferenceIdeal Cert.ReferenceIdeal.ReadP Idealize.ShloMosaic Idealize.ShloMosaic.ValueIdx Cert.EdgeGate

/-- The single-precision word of one is the real number one. -/
theorem one_bits : Ideal.ofBits .f32 0x3F800000#32 = (1 : EReal) := by
  simp [Ideal.ofBits, Ideal.ieee, -EReal.coe_mul]; norm_num

/-! ## Index equations -/

theorem i42 (e : Fin 1000000) (k : Fin 64) : idx_main_v42 (ix2 e k) = ix2 e (0 : Fin 1) :=
  funext fun a => Fin.ext (by match a with | ⟨0, _⟩ => rfl | ⟨1, _⟩ => rfl)
theorem i38 (e : Fin 1000000) : idx_main_v38 (ix2 e (0 : Fin 1)) = ix1 e :=
  funext fun a => Fin.ext (by match a with | ⟨0, _⟩ => rfl)
theorem ic0 (e : Fin 1000000) (k : Fin 64) : idx_main_call0_v0 (ix2 e k) = ix2 e (0 : Fin 1) :=
  funext fun a => Fin.ext (by match a with | ⟨0, _⟩ => rfl | ⟨1, _⟩ => rfl)
theorem i41 (e : Fin 1000000) : idx_main_v41 (ix2 e (0 : Fin 1)) = ix1 e :=
  funext fun a => Fin.ext (by match a with | ⟨0, _⟩ => rfl)
theorem i69 (e : Fin 1000000) (k : Fin 64) : idx_main_v69 (ix2 e k) = ix2 e (0 : Fin 1) :=
  funext fun a => Fin.ext (by match a with | ⟨0, _⟩ => rfl | ⟨1, _⟩ => rfl)
theorem i65 (e : Fin 1000000) : idx_main_v65 (ix2 e (0 : Fin 1)) = ix1 e :=
  funext fun a => Fin.ext (by match a with | ⟨0, _⟩ => rfl)
theorem ic1 (e : Fin 1000000) (k : Fin 64) : idx_main_call1_v0 (ix2 e k) = ix2 e (0 : Fin 1) :=
  funext fun a => Fin.ext (by match a with | ⟨0, _⟩ => rfl | ⟨1, _⟩ => rfl)
theorem i68 (e : Fin 1000000) : idx_main_v68 (ix2 e (0 : Fin 1)) = ix1 e :=
  funext fun a => Fin.ext (by match a with | ⟨0, _⟩ => rfl)

/-- Selecting on the test `1 < d`. -/
theorem select_cmp_gt {α : Type} (d : EReal) (a b : α) :
    Scalar.select (Ideal.cmp .ogt d 1) a b = if 1 < d then a else b := by
  unfold Scalar.select Ideal.cmp
  by_cases h : (1 : EReal) < d
  · simp [h]
  · simp [h]

/-- The forward mean at an edge and a column. -/
theorem v45_at (x0 : FVec Ideal S1000000x64 .f32) (x7 : IVec S1000000x2 32) (e : Fin 1000000) (k : Fin 64) :
    val_main_v45 (F := Ideal) x0 x7 (ix2 e k)
      = meanRef (val_main_v32 (F := Ideal) x0 x7 (ix2 e k)) (x0 (ix2 e k)) (val_main_v25 (F := Ideal) x7 (ix1 e)) := by
  rw [val_main_v45_apply, val_main_call0_v0_apply, val_main_v43_apply, val_main_v44_apply, val_main_cst_10_apply,
    val_main_v33_apply, val_main_v42_apply, i42, val_main_v38_apply, i38, val_main_v37_apply, val_main_v35_apply,
    val_main_v34_apply, val_main_cst_7_apply, val_main_v36_apply, val_main_cst_8_apply, ic0, val_main_v41_apply, i41,
    val_main_v40_apply, val_main_v39_apply, val_main_cst_9_apply]
  simp only [Ideal.hostDivf_def, Ideal.subf_def, Ideal.maximumf_def, Ideal.ofBits_def, Ideal.cmpf_def, one_bits,
    Ideal.ofBits_zero_f32, select_cmp_gt]
  rfl

/-- The backward mean at an edge and a column. -/
theorem v72_at (x0 : FVec Ideal S1000000x64 .f32) (x7 : IVec S1000000x2 32) (e : Fin 1000000) (k : Fin 64) :
    val_main_v72 (F := Ideal) x0 x7 (ix2 e k)
      = meanRef (val_main_v59 (F := Ideal) x0 x7 (ix2 e k)) (x0 (ix2 e k)) (val_main_v52 (F := Ideal) x7 (ix1 e)) := by
  rw [val_main_v72_apply, val_main_call1_v0_apply, val_main_v70_apply, val_main_v71_apply, val_main_cst_18_apply,
    val_main_v60_apply, val_main_v69_apply, i69, val_main_v65_apply, i65, val_main_v64_apply, val_main_v62_apply,
    val_main_v61_apply, val_main_cst_15_apply, val_main_v63_apply, val_main_cst_16_apply, ic1, val_main_v68_apply, i68,
    val_main_v67_apply, val_main_v66_apply, val_main_cst_17_apply]
  simp only [Ideal.hostDivf_def, Ideal.subf_def, Ideal.maximumf_def, Ideal.ofBits_def, Ideal.cmpf_def, one_bits,
    Ideal.ofBits_zero_f32, select_cmp_gt]
  rfl

theorem l73 (e : Fin 1000000) (j k : Fin 64) : lidx_main_v73 (ix2 e j) k = ix2 e k :=
  funext fun a => Fin.ext (by match a with | ⟨0, _⟩ => rfl | ⟨1, _⟩ => rfl)
theorem r73 (e : Fin 1000000) (j k : Fin 64) : ridx_main_v73 (ix2 e j) k = ix2 k j :=
  funext fun a => Fin.ext (by match a with | ⟨0, _⟩ => rfl | ⟨1, _⟩ => rfl)
theorem i75 (e : Fin 1000000) (j : Fin 64) : idx_main_v75 (ix2 e j) = ix2 (0 : Fin 1) j :=
  funext fun a => Fin.ext (by match a with | ⟨0, _⟩ => rfl | ⟨1, _⟩ => rfl)
theorem i74 (j : Fin 64) : idx_main_v74 (ix2 (0 : Fin 1) j) = ix1 j :=
  funext fun a => Fin.ext (by match a with | ⟨0, _⟩ => rfl)
theorem l77 (e : Fin 1000000) (j k : Fin 64) : lidx_main_v77 (ix2 e j) k = ix2 e k :=
  funext fun a => Fin.ext (by match a with | ⟨0, _⟩ => rfl | ⟨1, _⟩ => rfl)
theorem r77 (e : Fin 1000000) (j k : Fin 64) : ridx_main_v77 (ix2 e j) k = ix2 k j :=
  funext fun a => Fin.ext (by match a with | ⟨0, _⟩ => rfl | ⟨1, _⟩ => rfl)
theorem i79 (e : Fin 1000000) (j : Fin 64) : idx_main_v79 (ix2 e j) = ix2 (0 : Fin 1) j :=
  funext fun a => Fin.ext (by match a with | ⟨0, _⟩ => rfl | ⟨1, _⟩ => rfl)
theorem i78 (j : Fin 64) : idx_main_v78 (ix2 (0 : Fin 1) j) = ix1 j :=
  funext fun a => Fin.ext (by match a with | ⟨0, _⟩ => rfl)

/-- The forward row of an edge: its mean of the other edges at the first endpoint through the forward layer. -/
def fwd (x0 : FVec Ideal S1000000x64 .f32) (x1 : FVec Ideal S64x64 .f32) (x2 : FVec Ideal S64 .f32)
    (x7 : IVec S1000000x2 32) (e : Fin 1000000) : Fin 64 → EReal :=
  lin (fun k => meanRef (val_main_v32 (F := Ideal) x0 x7 (ix2 e k)) (x0 (ix2 e k)) (val_main_v25 (F := Ideal) x7 (ix1 e)))
    (fun k n => x1 (ix2 k n)) (fun n => x2 (ix1 n))

/-- The backward row of an edge, likewise at the second endpoint. -/
def bwd (x0 : FVec Ideal S1000000x64 .f32) (x3 : FVec Ideal S64x64 .f32) (x4 : FVec Ideal S64 .f32)
    (x7 : IVec S1000000x2 32) (e : Fin 1000000) : Fin 64 → EReal :=
  lin (fun k => meanRef (val_main_v59 (F := Ideal) x0 x7 (ix2 e k)) (x0 (ix2 e k)) (val_main_v52 (F := Ideal) x7 (ix1 e)))
    (fun k n => x3 (ix2 k n)) (fun n => x4 (ix1 n))

/-- The forward linear layer at an edge and a column. -/
theorem v76_at (x0 : FVec Ideal S1000000x64 .f32) (x1 : FVec Ideal S64x64 .f32) (x2 : FVec Ideal S64 .f32)
    (x7 : IVec S1000000x2 32) (e : Fin 1000000) (j : Fin 64) :
    val_main_v76 (F := Ideal) x0 x1 x2 x7 (ix2 e j) = fwd x0 x1 x2 x7 e j := by
  rw [val_main_v76_apply, val_main_v73_apply, val_main_v75_apply, i75, val_main_v74_apply, i74]
  simp only [l73, r73, v45_at, Ideal.addf_def]
  rfl

/-- The backward linear layer at an edge and a column. -/
theorem v80_at (x0 : FVec Ideal S1000000x64 .f32) (x3 : FVec Ideal S64x64 .f32) (x4 : FVec Ideal S64 .f32)
    (x7 : IVec S1000000x2 32) (e : Fin 1000000) (j : Fin 64) :
    val_main_v80 (F := Ideal) x0 x3 x4 x7 (ix2 e j) = bwd x0 x3 x4 x7 e j := by
  rw [val_main_v80_apply, val_main_v77_apply, val_main_v79_apply, i79, val_main_v78_apply, i78]
  simp only [l77, r77, v72_at, Ideal.addf_def]
  rfl

theorem l82 (e : Fin 1000000) (k : Fin 64) : lidx_main_v82 (ix2 e (0 : Fin 1)) k = ix2 e k :=
  funext fun a => Fin.ext (by match a with | ⟨0, _⟩ => rfl | ⟨1, _⟩ => rfl)
theorem r82 (e : Fin 1000000) (k : Fin 64) : ridx_main_v82 (ix2 e (0 : Fin 1)) k = ix2 k (0 : Fin 1) :=
  funext fun a => Fin.ext (by match a with | ⟨0, _⟩ => rfl | ⟨1, _⟩ => rfl)
theorem i84 (e : Fin 1000000) : idx_main_v84 (ix2 e (0 : Fin 1)) = ix2 (0 : Fin 1) (0 : Fin 1) :=
  funext fun a => Fin.ext (by match a with | ⟨0, _⟩ => rfl | ⟨1, _⟩ => rfl)
theorem i83 : idx_main_v83 (ix2 (0 : Fin 1) (0 : Fin 1)) = ix1 (0 : Fin 1) :=
  funext fun a => Fin.ext (by match a with | ⟨0, _⟩ => rfl)
theorem i92 (e : Fin 1000000) (j : Fin 64) : idx_main_v92 (ix2 e j) = ix2 e (0 : Fin 1) :=
  funext fun a => Fin.ext (by match a with | ⟨0, _⟩ => rfl | ⟨1, _⟩ => rfl)
theorem i96 (e : Fin 1000000) (j : Fin 64) : idx_main_v96 (ix2 e j) = ix2 e (0 : Fin 1) :=
  funext fun a => Fin.ext (by match a with | ⟨0, _⟩ => rfl | ⟨1, _⟩ => rfl)

/-- The gate's argument at an edge. -/
theorem v85_at (x0 : FVec Ideal S1000000x64 .f32) (x1 : FVec Ideal S64x64 .f32) (x2 : FVec Ideal S64 .f32)
    (x3 : FVec Ideal S64x64 .f32) (x4 : FVec Ideal S64 .f32) (x5 : FVec Ideal S64x1 .f32) (x6 : FVec Ideal S1 .f32)
    (x7 : IVec S1000000x2 32) (e : Fin 1000000) :
    val_main_v85 (F := Ideal) x0 x1 x2 x3 x4 x5 x6 x7 (ix2 e (0 : Fin 1))
      = (∑ k : Fin 64, (fwd x0 x1 x2 x7 e k + bwd x0 x3 x4 x7 e k) * x5 (ix2 k (0 : Fin 1))) + x6 (ix1 (0 : Fin 1)) := by
  rw [val_main_v85_apply, val_main_v82_apply, val_main_v84_apply, i84, val_main_v83_apply, i83, Ideal.addf_def]
  refine congrArg (· + x6 (ix1 (0 : Fin 1))) (Finset.sum_congr rfl fun k _ => ?_)
  rw [l82, r82, val_main_v81_apply, v76_at, v80_at, Ideal.addf_def]

/-- The gate at an edge. -/
theorem v91_at (x0 : FVec Ideal S1000000x64 .f32) (x1 : FVec Ideal S64x64 .f32) (x2 : FVec Ideal S64 .f32)
    (x3 : FVec Ideal S64x64 .f32) (x4 : FVec Ideal S64 .f32) (x5 : FVec Ideal S64x1 .f32) (x6 : FVec Ideal S1 .f32)
    (x7 : IVec S1000000x2 32) (e : Fin 1000000) :
    val_main_v91 (F := Ideal) x0 x1 x2 x3 x4 x5 x6 x7 (ix2 e (0 : Fin 1))
      = gate (fwd x0 x1 x2 x7 e) (bwd x0 x3 x4 x7 e) (fun k => x5 (ix2 k (0 : Fin 1))) (x6 (ix1 (0 : Fin 1))) := by
  rw [val_main_v91_apply, val_main_v90_apply, val_main_cst_20_apply, val_main_v89_apply, val_main_v88_apply,
    val_main_cst_19_apply, val_main_v87_apply, val_main_v86_apply, v85_at, Ideal.hostDivf_def, Ideal.addf_def,
    Ideal.hostUnary_exp_def, Ideal.hostNegf_def, Ideal.negf_def, Ideal.ofBits_def, one_bits]
  rfl

/-- The reference's last stage, index by index, is the layer's result over its own four per-edge gathers. -/
theorem ref_value (x0 : FVec Ideal S1000000x64 .f32) (x1 : FVec Ideal S64x64 .f32) (x2 : FVec Ideal S64 .f32)
    (x3 : FVec Ideal S64x64 .f32) (x4 : FVec Ideal S64 .f32) (x5 : FVec Ideal S64x1 .f32) (x6 : FVec Ideal S1 .f32)
    (x7 : IVec S1000000x2 32) (e : Fin 1000000) (j : Fin 64) :
    val_main_v98 (F := Ideal) x0 x1 x2 x3 x4 x5 x6 x7 (ix2 e j)
      = resultWith meanRef x0 x1 x2 x3 x4 x5 x6 (val_main_v32 (F := Ideal) x0 x7) (val_main_v59 (F := Ideal) x0 x7)
          (val_main_v25 (F := Ideal) x7) (val_main_v52 (F := Ideal) x7) e j := by
  rw [val_main_v98_apply, val_main_v93_apply, val_main_v97_apply, val_main_v92_apply, i92, val_main_v96_apply, i96,
    val_main_v95_apply, val_main_v94_apply, val_main_cst_21_apply, v91_at, v76_at, v80_at, Ideal.addf_def,
    Ideal.mulf_def, Ideal.mulf_def, Ideal.subf_def, Ideal.ofBits_def, one_bits]
  rfl

/-! ## The degrees are counts -/

/-- A scatter-add of ones into zeros counts the updates that land on an entry: a natural number. -/
theorem count_nat (z : FVec Ideal S100000 .f32) (hz : ∀ i, z i = 0) (idx : IVec S1000000x1 32) (n : S100000.Idx) :
    ∃ c : ℕ, Host.scatterAdd (F := Ideal) scatter_S100000_S1000000x1_S1000000_n_0_0_1 z idx (val_main_v11 (F := Ideal)) n
      = (c : EReal) := by
  refine ⟨(Finset.univ.filter
    (fun j => scatter_S100000_S1000000x1_S1000000_n_0_0_1.resultIdx? j idx = some n)).card, ?_⟩
  unfold Host.scatterAdd
  rw [Ideal.hostScatterAdd_def]
  unfold Ideal.hostScatterAdd
  show z n + ∑ j ∈ Finset.univ.filter
    (fun j => scatter_S100000_S1000000x1_S1000000_n_0_0_1.resultIdx? j idx = some n), val_main_v11 (F := Ideal) j = _
  rw [hz, zero_add]
  simp only [val_main_v11_apply, val_main_cst_1_apply, Ideal.ofBits_def, one_bits]
  rw [Finset.sum_const, nsmul_one]

theorem v12_zero (i : S100000.Idx) : val_main_v12 (F := Ideal) i = 0 := by
  rw [val_main_v12_apply, val_main_cst_2_apply, Ideal.ofBits_def, Ideal.ofBits_zero_f32]

theorem v15_zero (i : S100000.Idx) : val_main_v15 (F := Ideal) i = 0 := by
  rw [val_main_v15_apply, val_main_cst_3_apply, Ideal.ofBits_def, Ideal.ofBits_zero_f32]

/-- Every node's degree is a natural number: the two endpoint counts added. -/
theorem v18_nat (x7 : IVec S1000000x2 32) (n : S100000.Idx) : ∃ c : ℕ, val_main_v18 (F := Ideal) x7 n = (c : EReal) := by
  obtain ⟨a, ha⟩ : ∃ c : ℕ, val_main_v14 (F := Ideal) x7 n = (c : EReal) :=
    count_nat _ v12_zero (val_main_v13 (F := Ideal) x7) n
  obtain ⟨b, hb⟩ : ∃ c : ℕ, val_main_v17 (F := Ideal) x7 n = (c : EReal) :=
    count_nat _ v15_zero (val_main_v16 (F := Ideal) x7) n
  exact ⟨a + b, by rw [val_main_v18_apply, Ideal.addf_def, ha, hb, Nat.cast_add]⟩

/-- The degree gathered at an edge's first endpoint is a natural number: a count of ones. -/
theorem deg_u_nat (x7 : IVec S1000000x2 32) (e : S1000000.Idx) : ∃ n : ℕ, val_main_v25 (F := Ideal) x7 e = (n : EReal) := by
  unfold val_main_v25 Host.gather
  exact v18_nat x7 _

/-- The same at the second endpoint. -/
theorem deg_v_nat (x7 : IVec S1000000x2 32) (e : S1000000.Idx) : ∃ n : ℕ, val_main_v52 (F := Ideal) x7 e = (n : EReal) := by
  unfold val_main_v52 Host.gather
  exact v18_nat x7 _

end Cert.EdgeGate.Ref

end
-- ==== Proof.PreRange.lean ====
import proofs.«400100_j65824668779103_2_alg».proof.Pre_finite_inputs
import proofs.«400100_j65824668779103_2_alg».proof.Proof.Gen.Pre_finite_inputs
import proofs.«400100_j65824668779103_2_alg».proof.Proof.Range
import Idealize.ShloMosaic.PureOps.Ideal
import Idealize.ShloMosaic.Lib.StableHlo.Predicate
import Idealize.ShloMosaic.Lib.ReduceAll

noncomputable section

namespace Cert.EdgeGate

open Idealize.ShloMosaic Cert.Pre_finite_inputs

/-- A pointwise `and` of two `i1` arrays that is 1 at an index has both operands 1 there. -/
theorem andi_at_eq_one {s : Shape} (x y : IVec s 1) (j : s.Idx) (e : andi x y j = 1#1) :
    x j = 1#1 ∧ y j = 1#1 :=
  IntOp.andi_eq_one.1 e

/-- The precondition's last two conjuncts say that every endpoint id is at least 0 and below 100000. -/
theorem inRange_of_pre (a0 : FVec Ideal S1000000x64 .f32) (a1 : FVec Ideal S64x64 .f32) (a2 : FVec Ideal S64 .f32)
    (a3 : FVec Ideal S64x64 .f32) (a4 : FVec Ideal S64 .f32) (a5 : FVec Ideal S64x1 .f32) (a6 : FVec Ideal S1 .f32)
    (a7 : IVec S1000000x2 32)
    (h : Cert.Pre_finite_inputs.fn (F := Ideal) a0 a1 a2 a3 a4 a5 a6 a7 = fun _ => 1#1) : InRange a7 := by
  haveI : Subsingleton (S_ : Shape).Idx := ⟨fun a b => funext fun d => d.elim0⟩
  have h0 := congrFun h (fun d => d.elim0)
  dsimp only [fn, fn_part1, fn_part2] at h0
  obtain ⟨h1, hlt⟩ := andi_at_eq_one _ _ _ h0
  obtain ⟨-, hge⟩ := andi_at_eq_one _ _ _ h1
  clear h0 h1
  intro i
  -- a reduction by `and` over all axes that is 1 has a 1 at every index of the reduced array
  have e1 := Host.reduce_andi_all _ _ _ _ _ hge i
  have e2 := Host.reduce_andi_all _ _ _ _ _ hlt i
  -- at index i the comparison is of the word (a7 i) against the broadcast scalar, which reads the scalar itself
  have g1 : IntOp.cmpi .sge (a7 i) 0#32 = 1#1 := e1
  have g2 : IntOp.cmpi .slt (a7 i) 100000#32 = 1#1 := e2
  -- a signed comparison that is 1 orders the signed values of its operands
  have k1 : (0#32 : BitVec 32).toInt ≤ (a7 i).toInt := IntOp.cmpi_sge.1 g1
  have k2 : (a7 i).toInt < (100000#32 : BitVec 32).toInt := IntOp.cmpi_slt.1 g2
  have z0 : (0#32 : BitVec 32).toInt = 0 := by decide
  have z1 : (100000#32 : BitVec 32).toInt = 100000 := by decide
  rw [z0] at k1
  rw [z1] at k2
  exact ⟨k1, k2⟩

end Cert.EdgeGate

end
-- ==== Proof.lean ====
/- The proof of `Cert.Claim` for the edge-gating layer.

   For every edge e with endpoints u(e), v(e): the node table holds, per node, the sum s of the embeddings of its
   incident edges and their number d; the mean of the OTHER incident edges is (s - x) / (d - 1) when d > 1 and 0
   otherwise; two linear layers, a scalar logistic gate and its convex mix follow. The reference spells the mean as a
   quotient by max (d - 1) 1 under the test d > 1; the kernel multiplies by a per-node reciprocal (0 when d <= 1),
   packs two edges per 128-lane row and uses block-diagonal weights. The two agree because d is a natural number (a
   count of ones): for d >= 2 the maximum is d - 1 and the quotient is the product with 1 / (d - 1); for d <= 1 both
   are 0 (x * 0 = 0 on the extended reals). Off-diagonal weight blocks contribute zero terms to each sum.

   The endpoint ids are assumed to name nodes (0 <= id < 100000): outside that range the reference itself indexes its
   node table out of range (it clamps) while the kernel's lookup fills with a not-a-number pattern.

   Modules: Spec (the mathematics), Algebra (the two laws above), PreRange (the precondition read as a range of the
   ids), RefRun / RefRead / RefBridge (the reference's run, stage by stage, is the specification), KArrays / KHostW /
   KHostG (the kernel's host lines before its region), KPayload (its body at an index), KCover (its blocks cover
   the output; the final reshape), KValue (the kernel's value per edge and its run). -/
import proofs.«400100_j65824668779103_2_alg».proof.Defs
import proofs.«400100_j65824668779103_2_alg».proof.Proof.Gen.Kernel
import proofs.«400100_j65824668779103_2_alg».proof.Proof.Gen.Kernel.Frame
import proofs.«400100_j65824668779103_2_alg».proof.Proof.Gen.KernelIdeal
import proofs.«400100_j65824668779103_2_alg».proof.Proof.Gen.KernelIdeal.Frame
import proofs.«400100_j65824668779103_2_alg».proof.Proof.Gen.ReferenceIdeal
import proofs.«400100_j65824668779103_2_alg».proof.Proof.Gen.Pre_finite_inputs
import proofs.«400100_j65824668779103_2_alg».proof.Proof.KValue
import proofs.«400100_j65824668779103_2_alg».proof.Proof.RefBridge
import proofs.«400100_j65824668779103_2_alg».proof.Proof.PreRange
import Idealize.ShloMosaic.Adequacy
import Idealize.ShloMosaic.Init

noncomputable section

namespace Cert.Proof

open Idealize.ShloMosaic Idealize.SL.Sem Idealize.ShloMosaic.ValueIdx Cert.EdgeGate

theorem frame_p : Cert.frame_Kernel := fun m ρ _ => Cert.Kernel.Gen.frame m ρ

theorem frame_pi : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the layer's result: the kernel's over the product spelling of the mean, the reference's over
    the quotient spelling, equal at every edge because the gathered degrees are natural numbers. -/
theorem algebraic : Cert.algebraic_KernelIdeal_ReferenceIdeal := by
  intro m ρ m' ρ' hpre hagree
  have hr : ∀ c, InRange (Cert.KernelIdeal.Arr.a7 m c) := fun c => inRange_of_pre _ _ _ _ _ _ _ _ (hpre c)
  refine ⟨fun c => Cert.KernelIdeal.Arr.KV m c, Cert.KernelIdeal.Value.kernel_run m ρ, ?_⟩
  refine (θ_run Cert.ReferenceIdeal.defs _ _).mono (fun r h c => ⟨?_, (h c).2⟩)
    (Cert.ReferenceIdeal.ValueP.run (F := Ideal) m' ρ')
  rw [(h c).1, Cert.ReferenceIdeal.ReadP.val_main_v98_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  funext i
  obtain ⟨e, j, rfl⟩ : ∃ (e : Fin 1000000) (j : Fin 64), i = ix2 e j := ⟨i 0, i 1, eq_ix2 i⟩
  refine (Ref.ref_value _ _ _ _ _ _ _ _ e j).trans ?_
  refine Eq.trans ?_ (Cert.KernelIdeal.Value.kernel_value m c (hr c) e j).symm
  obtain ⟨n, hn⟩ := Ref.deg_u_nat (Cert.KernelIdeal.Arr.a7 m c) (ix1 e)
  obtain ⟨n', hn'⟩ := Ref.deg_v_nat (Cert.KernelIdeal.Arr.a7 m c) (ix1 e)
  simp only [resultWith, hn, hn', meanKer_eq_meanRef]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
